-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x4 : Shape := ⟨2, ![4096, 4]⟩
abbrev S64x1024x1024 : Shape := ⟨3, ![64, 1024, 1024]⟩
abbrev S64x1024x512 : Shape := ⟨3, ![64, 1024, 512]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4 : S_.BroadcastsInDim S4096x4 (![] : Fin 0 → Fin S4096x4.rank)
  reducesTo_S4096x4_S_d0_1 : S4096x4.ReducesTo [0, 1] S_
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S64x1024x512 : S_.BroadcastsInDim S64x1024x512 (![] : Fin 0 → Fin S64x1024x512.rank)
  reducesTo_S64x1024x512_S_d0_1_2 : S64x1024x512.ReducesTo [0, 1, 2] S_

variable [Facts]

def fn_part1 {F : FTy → Type} [FloatOps F] (main_v13 : IVec S_ 1) (main_v16 : IVec S64x1024x512 1) : IVec S_ 1 :=
  let main_c_5 : IVec S_ 1 := constantI S_ 1 1#1
  let main_v17 : IVec S_ 1 := (fun x v => Host.reduce IntOp.andi x v reducesTo_S64x1024x512_S_d0_1_2 h_S_) main_v16 main_c_5
  let main_v18 : IVec S_ 1 := andi main_v13 main_v17
  main_v18

def fn {F : FTy → Type} [FloatOps F] (main_arg0 : FVec F S4096x1024 .f32) (main_arg1 : IVec S4096x4 32) (main_arg2 : FVec F S4096x4 .f32) (main_arg3 : FVec F S64x1024x1024 .f32) (main_arg4 : FVec F S64x1024x512 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x4 .f32 := Host.absf main_arg2
  let main_cst_0 : FVec F S_ .f32 := constant S_ .f32 0x7F800000#32
  let main_v5 : FVec F S4096x4 .f32 := broadcastInDim S4096x4 ![] bcast_S_S4096x4 main_cst_0
  let main_v6 : IVec S4096x4 1 := cmpf .olt main_v4 main_v5
  let main_c_1 : IVec S_ 1 := constantI S_ 1 1#1
  let main_v7 : IVec S_ 1 := (fun x v => Host.reduce IntOp.andi x v reducesTo_S4096x4_S_d0_1 h_S_) main_v6 main_c_1
  let main_v8 : IVec S_ 1 := andi main_v3 main_v7
  let main_v9 : FVec F S64x1024x1024 .f32 := Host.absf main_arg3
  let main_cst_2 : FVec F S_ .f32 := constant S_ .f32 0x7F800000#32
  let main_v10 : FVec F S64x1024x1024 .f32 := broadcastInDim S64x1024x1024 ![] bcast_S_S64x1024x1024 main_cst_2
  let main_v11 : IVec S64x1024x1024 1 := cmpf .olt main_v9 main_v10
  let main_c_3 : IVec S_ 1 := constantI S_ 1 1#1
  let main_v12 : IVec S_ 1 := (fun x v => Host.reduce IntOp.andi x v reducesTo_S64x1024x1024_S_d0_1_2 h_S_) main_v11 main_c_3
  let main_v13 : IVec S_ 1 := andi main_v8 main_v12
  let main_v14 : FVec F S64x1024x512 .f32 := Host.absf main_arg4
  let main_cst_4 : FVec F S_ .f32 := constant S_ .f32 0x7F800000#32
  let main_v15 : FVec F S64x1024x512 .f32 := broadcastInDim S64x1024x512 ![] bcast_S_S64x1024x512 main_cst_4
  let main_v16 : IVec S64x1024x512 1 := cmpf .olt main_v14 main_v15
  fn_part1 (F := F) main_v13 main_v16
-- ==== Kernel.lean ====
abbrev S4096x1024 : Shape := ⟨2, ![4096, 1024]⟩
abbrev S4096x4 : Shape := ⟨2, ![4096, 4]⟩
abbrev S64x1024x1024 : Shape := ⟨3, ![64, 1024, 1024]⟩
abbrev S64x1024x512 : Shape := ⟨3, ![64, 1024, 512]⟩
abbrev S16384 : Shape := ⟨1, ![16384]⟩
abbrev S4096 : Shape := ⟨1, ![4096]⟩
abbrev S16384x1 : Shape := ⟨2, ![16384, 1]⟩
abbrev S64 : Shape := ⟨1, ![64]⟩
abbrev S1x64 : Shape := ⟨2, ![1, 64]⟩
abbrev S16384x64 : Shape := ⟨2, ![16384, 64]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S16384x1024 : Shape := ⟨2, ![16384, 1024]⟩
abbrev S64x513x1024 : Shape := ⟨3, ![64, 513, 1024]⟩
abbrev S16384x2 : Shape := ⟨2, ![16384, 2]⟩
abbrev S1x513x1024 : Shape := ⟨3, ![1, 513, 1024]⟩
abbrev S1x1024x1024 : Shape := ⟨3, ![1, 1024, 1024]⟩
abbrev S1x1024x512 : Shape := ⟨3, ![1, 1024, 512]⟩
abbrev S513x1024 : Shape := ⟨2, ![513, 1024]⟩
abbrev S1024x1024 : Shape := ⟨2, ![1024, 1024]⟩
abbrev S513x512 : Shape := ⟨2, ![513, 512]⟩
abbrev S1024x512 : Shape := ⟨2, ![1024, 512]⟩

abbrev nBuf : Space → Nat
  | .hbm => 118
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x4, .i32⟩
  | .hbm, ⟨2, _⟩ => ⟨S4096x4, .f32⟩
  | .hbm, ⟨3, _⟩ => ⟨S64x1024x1024, .f32⟩
  | .hbm, ⟨4, _⟩ => ⟨S64x1024x512, .f32⟩
  | .hbm, ⟨5, _⟩ => ⟨S16384, .i32⟩
  | .hbm, ⟨6, _⟩ => ⟨S4096, .i32⟩
  | .hbm, ⟨7, _⟩ => ⟨S4096x4, .i32⟩
  | .hbm, ⟨8, _⟩ => ⟨S16384, .i32⟩
  | .hbm, ⟨9, _⟩ => ⟨S16384x1, .i32⟩
  | .hbm, ⟨10, _⟩ => ⟨S64, .i32⟩
  | .hbm, ⟨11, _⟩ => ⟨S1x64, .i32⟩
  | .hbm, ⟨12, _⟩ => ⟨S16384x64, .i32⟩
  | .hbm, ⟨13, _⟩ => ⟨S16384x64, .i32⟩
  | .hbm, ⟨14, _⟩ => ⟨S16384x64, .i1⟩
  | .hbm, ⟨15, _⟩ => ⟨S16384x64, .i32⟩
  | .hbm, ⟨16, _⟩ => ⟨S_, .i32⟩
  | .hbm, ⟨17, _⟩ => ⟨S_, .i32⟩
  | .hbm, ⟨18, _⟩ => ⟨S16384x64, .i32⟩
  | .hbm, ⟨19, _⟩ => ⟨S16384x1, .i32⟩
  | .hbm, ⟨20, _⟩ => ⟨S_, .i32⟩
  | .hbm, ⟨21, _⟩ => ⟨S16384x1, .i32⟩
  | .hbm, ⟨22, _⟩ => ⟨S16384x1, .i1⟩
  | .hbm, ⟨23, _⟩ => ⟨S_, .i32⟩
  | .hbm, ⟨24, _⟩ => ⟨S16384x1, .i32⟩
  | .hbm, ⟨25, _⟩ => ⟨S16384x1, .i32⟩
  | .hbm, ⟨26, _⟩ => ⟨S16384x1, .i32⟩
  | .hbm, ⟨27, _⟩ => ⟨S16384x1x1, .i32⟩
  | .hbm, ⟨28, _⟩ => ⟨S1, .i32⟩
  | .hbm, ⟨29, _⟩ => ⟨S_, .i32⟩
  | .hbm, ⟨30, _⟩ => ⟨S16384x1x1, .i32⟩
  | .hbm, ⟨31, _⟩ => ⟨S16384x1x1, .i1⟩
  | .hbm, ⟨32, _⟩ => ⟨S1x1x1, .i32⟩
  | .hbm, ⟨33, _⟩ => ⟨S16384x1x1, .i32⟩
  | .hbm, ⟨34, _⟩ => ⟨S16384x1x1, .i1⟩
  | .hbm, ⟨35, _⟩ => ⟨S16384x1x1, .i1⟩
  | .hbm, ⟨36, _⟩ => ⟨S_, .i1⟩
  | .hbm, ⟨37, _⟩ => ⟨S16384x1, .i1⟩
  | .hbm, ⟨38, _⟩ => ⟨S16384x1, .i32⟩
  | .hbm, ⟨39, _⟩ => ⟨S_, .i32⟩
  | .hbm, ⟨40, _⟩ => ⟨S16384x1, .i32⟩
  | .hbm, ⟨41, _⟩ => ⟨S16384x1, .i32⟩
  | .hbm, ⟨42, _⟩ => ⟨S16384, .i32⟩
  | .hbm, ⟨43, _⟩ => ⟨S_, .i32⟩
  | .hbm, ⟨44, _⟩ => ⟨S16384, .i32⟩
  | .hbm, ⟨45, _⟩ => ⟨S16384, .i32⟩
  | .hbm, ⟨46, _⟩ => ⟨S_, .i32⟩
  | .hbm, ⟨47, _⟩ => ⟨S16384, .i32⟩
  | .hbm, ⟨48, _⟩ => ⟨S16384, .i1⟩
  | .hbm, ⟨49, _⟩ => ⟨S_, .i32⟩
  | .hbm, ⟨50, _⟩ => ⟨S_, .i32⟩
  | .hbm, ⟨51, _⟩ => ⟨S16384, .i32⟩
  | .hbm, ⟨52, _⟩ => ⟨S16384, .i32⟩
  | .hbm, ⟨53, _⟩ => ⟨S_, .i32⟩
  | .hbm, ⟨54, _⟩ => ⟨S16384, .i32⟩
  | .hbm, ⟨55, _⟩ => ⟨S16384, .i1⟩
  | .hbm, ⟨56, _⟩ => ⟨S_, .i32⟩
  | .hbm, ⟨57, _⟩ => ⟨S16384, .i32⟩
  | .hbm, ⟨58, _⟩ => ⟨S16384, .i32⟩
  | .hbm, ⟨59, _⟩ => ⟨S16384, .i32⟩
  | .hbm, ⟨60, _⟩ => ⟨S16384x1, .i32⟩
  | .hbm, ⟨61, _⟩ => ⟨S16384x1024, .f32⟩
  | .hbm, ⟨62, _⟩ => ⟨S_, .f32⟩
  | .hbm, ⟨63, _⟩ => ⟨S64x513x1024, .f32⟩
  | .hbm, ⟨64, _⟩ => ⟨S_, .i32⟩
  | .hbm, ⟨65, _⟩ => ⟨S16384, .i32⟩
  | .hbm, ⟨66, _⟩ => ⟨S16384, .i1⟩
  | .hbm, ⟨67, _⟩ => ⟨S_, .i32⟩
  | .hbm, ⟨68, _⟩ => ⟨S16384, .i32⟩
  | .hbm, ⟨69, _⟩ => ⟨S16384, .i32⟩
  | .hbm, ⟨70, _⟩ => ⟨S16384, .i32⟩
  | .hbm, ⟨71, _⟩ => ⟨S_, .i32⟩
  | .hbm, ⟨72, _⟩ => ⟨S16384, .i32⟩
  | .hbm, ⟨73, _⟩ => ⟨S16384, .i1⟩
  | .hbm, ⟨74, _⟩ => ⟨S_, .i32⟩
  | .hbm, ⟨75, _⟩ => ⟨S16384, .i32⟩
  | .hbm, ⟨76, _⟩ => ⟨S16384, .i32⟩
  | .hbm, ⟨77, _⟩ => ⟨S16384, .i32⟩
  | .hbm, ⟨78, _⟩ => ⟨S16384x1, .i32⟩
  | .hbm, ⟨79, _⟩ => ⟨S16384x1, .i32⟩
  | .hbm, ⟨80, _⟩ => ⟨S16384x2, .i32⟩
  | .hbm, ⟨81, _⟩ => ⟨S64x513x1024, .f32⟩
  | .hbm, ⟨82, _⟩ => ⟨S64x513x1024, .f32⟩
  | .hbm, ⟨83, _⟩ => ⟨S16384, .f32⟩
  | .hbm, ⟨84, _⟩ => ⟨S16384, .f32⟩
  | .hbm, ⟨85, _⟩ => ⟨S16384, .f32⟩
  | .hbm, ⟨86, _⟩ => ⟨S_, .i32⟩
  | .hbm, ⟨87, _⟩ => ⟨S16384, .i32⟩
  | .hbm, ⟨88, _⟩ => ⟨S16384, .i1⟩
  | .hbm, ⟨89, _⟩ => ⟨S_, .i32⟩
  | .hbm, ⟨90, _⟩ => ⟨S16384, .i32⟩
  | .hbm, ⟨91, _⟩ => ⟨S16384, .i32⟩
  | .hbm, ⟨92, _⟩ => ⟨S16384, .i32⟩
  | .hbm, ⟨93, _⟩ => ⟨S_, .i32⟩
  | .hbm, ⟨94, _⟩ => ⟨S16384, .i32⟩
  | .hbm, ⟨95, _⟩ => ⟨S16384, .i1⟩
  | .hbm, ⟨96, _⟩ => ⟨S_, .i32⟩
  | .hbm, ⟨97, _⟩ => ⟨S16384, .i32⟩
  | .hbm, ⟨98, _⟩ => ⟨S16384, .i32⟩
  | .hbm, ⟨99, _⟩ => ⟨S16384, .i32⟩
  | .hbm, ⟨100, _⟩ => ⟨S16384x1, .i32⟩
  | .hbm, ⟨101, _⟩ => ⟨S16384x1, .i32⟩
  | .hbm, ⟨102, _⟩ => ⟨S16384x2, .i32⟩
  | .hbm, ⟨103, _⟩ => ⟨S16384x1024, .f32⟩
  | .hbm, ⟨104, _⟩ => ⟨S16384x1, .f32⟩
  | .hbm, ⟨105, _⟩ => ⟨S16384x1024, .f32⟩
  | .hbm, ⟨106, _⟩ => ⟨S16384x1024, .f32⟩
  | .hbm, ⟨107, _⟩ => ⟨S_, .f32⟩
  | .hbm, ⟨108, _⟩ => ⟨S4096x1024, .f32⟩
  | .hbm, ⟨109, _⟩ => ⟨S_, .i32⟩
  | .hbm, ⟨110, _⟩ => ⟨S16384, .i32⟩
  | .hbm, ⟨111, _⟩ => ⟨S16384, .i1⟩
  | .hbm, ⟨112, _⟩ => ⟨S_, .i32⟩
  | .hbm, ⟨113, _⟩ => ⟨S16384, .i32⟩
  | .hbm, ⟨114, _⟩ => ⟨S16384, .i32⟩
  | .hbm, ⟨115, _⟩ => ⟨S16384, .i32⟩
  | .hbm, ⟨116, _⟩ => ⟨S16384x1, .i32⟩
  | .hbm, ⟨117, _⟩ => ⟨S4096x1024, .f32⟩
  | .local _ .vmem, ⟨0, _⟩ => ⟨S1x513x1024, .f32⟩
  | .local _ .vmem, ⟨1, _⟩ => ⟨S1x513x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x512, .f32⟩
  | .local _ .vmem, ⟨5, _⟩ => ⟨S1x1024x512, .f32⟩
  | .local _ .vmem, ⟨6, _⟩ => ⟨S1x513x1024, .f32⟩
  | .local _ .vmem, ⟨7, _⟩ => ⟨S1x513x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_c : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_c_4 : Ref sig .tc := ⟨.hbm, 39, rfl⟩
abbrev main_call1_v14 : Ref sig .tc := ⟨.hbm, 40, rfl⟩
abbrev main_v13 : Ref sig .tc := ⟨.hbm, 41, rfl⟩
abbrev main_v14 : Ref sig .tc := ⟨.hbm, 42, rfl⟩
abbrev main_c : Ref sig .tc := ⟨.hbm, 43, rfl⟩
abbrev main_v15 : Ref sig .tc := ⟨.hbm, 44, rfl⟩
abbrev main_v16 : Ref sig .tc := ⟨.hbm, 45, rfl⟩
abbrev main_c_0 : Ref sig .tc := ⟨.hbm, 46, rfl⟩
abbrev main_v17 : Ref sig .tc := ⟨.hbm, 47, rfl⟩
abbrev main_v18 : Ref sig .tc := ⟨.hbm, 48, rfl⟩
abbrev main_c_1 : Ref sig .tc := ⟨.hbm, 49, rfl⟩
abbrev main_call2_v0 : Ref sig .tc := ⟨.hbm, 50, rfl⟩
abbrev main_call2_v1 : Ref sig .tc := ⟨.hbm, 51, rfl⟩
abbrev main_v19 : Ref sig .tc := ⟨.hbm, 52, rfl⟩
abbrev main_c_2 : Ref sig .tc := ⟨.hbm, 53, rfl⟩
abbrev main_v20 : Ref sig .tc := ⟨.hbm, 54, rfl⟩
abbrev main_v21 : Ref sig .tc := ⟨.hbm, 55, rfl⟩
abbrev main_c_3 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst : Ref sig .tc := ⟨.hbm, 62, rfl⟩
abbrev main_v27 : Ref sig .tc := ⟨.hbm, 63, rfl⟩
abbrev main_c_4 : Ref sig .tc := ⟨.hbm, 64, rfl⟩
abbrev main_v28 : Ref sig .tc := ⟨.hbm, 65, rfl⟩
abbrev main_v29 : Ref sig .tc := ⟨.hbm, 66, rfl⟩
abbrev main_c_5 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_c_6 : Ref sig .tc := ⟨.hbm, 71, rfl⟩
abbrev main_v33 : Ref sig .tc := ⟨.hbm, 72, rfl⟩
abbrev main_v34 : Ref sig .tc := ⟨.hbm, 73, rfl⟩
abbrev main_c_7 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_c_8 : Ref sig .tc := ⟨.hbm, 86, rfl⟩
abbrev main_v46 : Ref sig .tc := ⟨.hbm, 87, rfl⟩
abbrev main_v47 : Ref sig .tc := ⟨.hbm, 88, rfl⟩
abbrev main_c_9 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_c_10 : Ref sig .tc := ⟨.hbm, 93, rfl⟩
abbrev main_v51 : Ref sig .tc := ⟨.hbm, 94, rfl⟩
abbrev main_v52 : Ref sig .tc := ⟨.hbm, 95, rfl⟩
abbrev main_c_11 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_12 : Ref sig .tc := ⟨.hbm, 107, rfl⟩
abbrev main_v63 : Ref sig .tc := ⟨.hbm, 108, rfl⟩
abbrev main_c_13 : Ref sig .tc := ⟨.hbm, 109, rfl⟩
abbrev main_v64 : Ref sig .tc := ⟨.hbm, 110, rfl⟩
abbrev main_v65 : Ref sig .tc := ⟨.hbm, 111, rfl⟩
abbrev main_c_14 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x513x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x513x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x4_S16384 : S4096x4.ShapeCasts S16384
  bcast_S4096_S4096x4_0 : S4096.BroadcastsInDim S4096x4 (![0] : Fin 1 → Fin S4096x4.rank)
  bcast_S16384_S16384x1_0 : S16384.BroadcastsInDim S16384x1 (![0] : Fin 1 → Fin S16384x1.rank)
  bcast_S64_S1x64_1 : S64.BroadcastsInDim S1x64 (![1] : Fin 1 → Fin S1x64.rank)
  bcast_S16384x1_S16384x64_0_1 : S16384x1.BroadcastsInDim S16384x64 (![0, 1] : Fin 2 → Fin S16384x64.rank)
  bcast_S1x64_S16384x64_0_1 : S1x64.BroadcastsInDim S16384x64 (![0, 1] : Fin 2 → Fin S16384x64.rank)
  natLt_1_32 : 1 < 32
  bcast_S_S_ : S_.BroadcastsInDim S_ (![] : Fin 0 → Fin S_.rank)
  reduceWindows_S16384x64_S16384x64_w16384s1p16383_0_w1s1p0_0 : S16384x64.ReduceWindows (![16384, 1] : Fin 2 → Nat) ![1, 1] ![16383, 0] ![0, 0] S16384x64
  h_S_ : 0 < S_.numel
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  bcast_S_S16384 : S_.BroadcastsInDim S16384 (![] : Fin 0 → Fin S16384.rank)
  bcast_S_S64x513x1024 : S_.BroadcastsInDim S64x513x1024 (![] : Fin 0 → Fin S64x513x1024.rank)
  concatenates_S16384x1_S16384x1_S16384x2_d1 : Shape.Concatenates [S16384x1, S16384x1] S16384x2 1
  inb_S1x513x1024_S1x513x1024_0_0_0 : ∀ a, (![0, 0, 0] : Fin 3 → Nat) a + S1x513x1024.size a ≤ S1x513x1024.size a
  h_S1x513x1024 : 0 < S1x513x1024.numel
  shapeCasts_S1x513x1024_S513x1024 : S1x513x1024.ShapeCasts S513x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  slices_S513x1024_o0_0_S513x512 : S513x1024.Slices ![0, 0] S513x512
  slices_S513x1024_o0_512_S513x512 : S513x1024.Slices ![0, 512] S513x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S513x1024_S1x513x1024 : S513x1024.ShapeCasts S1x513x1024
  bcast_S16384x1_S16384x1024_0_1 : S16384x1.BroadcastsInDim S16384x1024 (![0, 1] : Fin 2 → Fin S16384x1024.rank)
  bcast_S_S4096x1024 : S_.BroadcastsInDim S4096x1024 (![] : Fin 0 → Fin S4096x1024.rank)
  gather_S16384x64_S16384x1x1_S16384x1_n_1_0_0_1_2_11_wf : GatherDims.WF S16384x64 S16384x1x1 S16384x1 [] [1] [0] [1] [0] 2 ![1, 1]
  gather_S4096x1024_S16384x1_S16384x1024_1_0_n_n_0_1_11024_wf : GatherDims.WF S4096x1024 S16384x1 S16384x1024 [1] [0] [] [0] [] 1 ![1, 1024]
  scatter_S64x513x1024_S16384x2_S16384x1024_1_01_01_1_wf : ScatterDims.WF S64x513x1024 S16384x2 S16384x1024 [1] [0, 1] [0, 1] 1
  dot_S513x1024_S1024x1024_S513x1024_1_1_0_0_n_n_wf : DotDims.WF S513x1024 S1024x1024 S513x1024 [1] [1] [0] [0] [] []
  dot_S513x512_S1024x512_S513x1024_1_1_0_0_n_n_wf : DotDims.WF S513x512 S1024x512 S513x1024 [1] [1] [0] [0] [] []
  gather_S64x513x1024_S16384x2_S16384x1024_1_01_n_n_01_1_111024_wf : GatherDims.WF S64x513x1024 S16384x2 S16384x1024 [1] [0, 1] [] [0, 1] [] 1 ![1, 1, 1024]
  scatter_S4096x1024_S16384x1_S16384x1024_1_0_0_1_wf : ScatterDims.WF S4096x1024 S16384x1 S16384x1024 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x513x1024.size a ≤ S64x513x1024.size a
  hwx0_0 : ∀ i : grid0.Coords, EltTy.bits .f32 = 32 ∨ (Rect.block (s := S64x513x1024) S1x513x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S64x1024x1024.size a
  hwx0_1 : ∀ i : grid0.Coords, EltTy.bits .f32 = 32 ∨ (Rect.block (s := S64x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S64x1024x512.size a
  hwx0_2 : ∀ i : grid0.Coords, EltTy.bits .f32 = 32 ∨ (Rect.block (s := S64x1024x512) S1x1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x513x1024.size a ≤ S64x513x1024.size a
  hwx0_3 : ∀ i : grid0.Coords, EltTy.bits .f32 = 32 ∨ (Rect.block (s := S64x513x1024) S1x513x1024.size (cc0_transform_3 i) (hinb0_3 i)).WholeWords (EltTy.packing .f32)

variable [Facts₀]

def gather_S16384x64_S16384x1x1_S16384x1_n_1_0_0_1_2_11 : GatherDims S16384x64 S16384x1x1 S16384x1 where
  offsetDims := []
  collapsedSliceDims := [1]
  operandBatchingDims := [0]
  startIndicesBatchingDims := [0]
  startIndexMap := [1]
  indexVectorDim := 2
  sliceSizes := ![1, 1]
  wf := gather_S16384x64_S16384x1x1_S16384x1_n_1_0_0_1_2_11_wf
def gather_S4096x1024_S16384x1_S16384x1024_1_0_n_n_0_1_11024 : GatherDims S4096x1024 S16384x1 S16384x1024 where
  offsetDims := [1]
  collapsedSliceDims := [0]
  operandBatchingDims := []
  startIndicesBatchingDims := []
  startIndexMap := [0]
  indexVectorDim := 1
  sliceSizes := ![1, 1024]
  wf := gather_S4096x1024_S16384x1_S16384x1024_1_0_n_n_0_1_11024_wf
def scatter_S64x513x1024_S16384x2_S16384x1024_1_01_01_1 : ScatterDims S64x513x1024 S16384x2 S16384x1024 where
  updateWindowDims := [1]
  insertedWindowDims := [0, 1]
  scatterDimsToOperandDims := [0, 1]
  indexVectorDim := 1
  wf := scatter_S64x513x1024_S16384x2_S16384x1024_1_01_01_1_wf
def dot_S513x1024_S1024x1024_S513x1024_1_1_0_0_n_n : DotDims S513x1024 S1024x1024 S513x1024 where
  lhsContracting := [1]
  rhsContracting := [1]
  lhsNonContracting := [0]
  rhsNonContracting := [0]
  lhsBatch := []
  rhsBatch := []
  wf := dot_S513x1024_S1024x1024_S513x1024_1_1_0_0_n_n_wf
def dot_S513x512_S1024x512_S513x1024_1_1_0_0_n_n : DotDims S513x512 S1024x512 S513x1024 where
  lhsContracting := [1]
  rhsContracting := [1]
  lhsNonContracting := [0]
  rhsNonContracting := [0]
  lhsBatch := []
  rhsBatch := []
  wf := dot_S513x512_S1024x512_S513x1024_1_1_0_0_n_n_wf
def gather_S64x513x1024_S16384x2_S16384x1024_1_01_n_n_01_1_111024 : GatherDims S64x513x1024 S16384x2 S16384x1024 where
  offsetDims := [1]
  collapsedSliceDims := [0, 1]
  operandBatchingDims := []
  startIndicesBatchingDims := []
  startIndexMap := [0, 1]
  indexVectorDim := 1
  sliceSizes := ![1, 1, 1024]
  wf := gather_S64x513x1024_S16384x2_S16384x1024_1_01_n_n_01_1_111024_wf
def scatter_S4096x1024_S16384x1_S16384x1024_1_0_0_1 : ScatterDims S4096x1024 S16384x1 S16384x1024 where
  updateWindowDims := [1]
  insertedWindowDims := [0]
  scatterDimsToOperandDims := [0]
  indexVectorDim := 1
  wf := scatter_S4096x1024_S16384x1_S16384x1024_1_0_0_1_wf

abbrev win0_0 : Pipeline.Window sig grid0 :=
  Pipeline.Window.ofSpec (Memref.whole main_v41) S1x513x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v42) S1x513x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x4 : Shape := ⟨2, ![4096, 4]⟩
abbrev S64x1024x1024 : Shape := ⟨3, ![64, 1024, 1024]⟩
abbrev S64x1024x512 : Shape := ⟨3, ![64, 1024, 512]⟩
abbrev S16384 : Shape := ⟨1, ![16384]⟩
abbrev S4096 : Shape := ⟨1, ![4096]⟩
abbrev S16384x1 : Shape := ⟨2, ![16384, 1]⟩
abbrev S64 : Shape := ⟨1, ![64]⟩
abbrev S1x64 : Shape := ⟨2, ![1, 64]⟩
abbrev S16384x64 : Shape := ⟨2, ![16384, 64]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S16384x1024 : Shape := ⟨2, ![16384, 1024]⟩
abbrev S64x513x1024 : Shape := ⟨3, ![64, 513, 1024]⟩
abbrev S16384x2 : Shape := ⟨2, ![16384, 2]⟩
abbrev S64x513x512 : Shape := ⟨3, ![64, 513, 512]⟩

abbrev nBuf : Space → Nat
  | .hbm => 131
  | .vmem => 0
  | .smem => 0
  | _ => 0

abbrev hbmTy0_0 (i : Nat) : BufTy := match i % 128 with
  | 0 => ⟨S4096x1024, .f32⟩
  | 1 => ⟨S4096x4, .i32⟩
  | 2 => ⟨S4096x4, .f32⟩
  | 3 => ⟨S64x1024x1024, .f32⟩
  | 4 => ⟨S64x1024x512, .f32⟩
  | 5 => ⟨S16384, .i32⟩
  | 6 => ⟨S4096, .i32⟩
  | 7 => ⟨S4096x4, .i32⟩
  | 8 => ⟨S16384, .i32⟩
  | 9 => ⟨S16384x1, .i32⟩
  | 10 => ⟨S64, .i32⟩
  | 11 => ⟨S1x64, .i32⟩
  | 12 => ⟨S16384x64, .i32⟩
  | 13 => ⟨S16384x64, .i32⟩
  | 14 => ⟨S16384x64, .i1⟩
  | 15 => ⟨S16384x64, .i32⟩
  | 16 => ⟨S_, .i32⟩
  | 17 => ⟨S_, .i32⟩
  | 18 => ⟨S16384x64, .i32⟩
  | 19 => ⟨S16384x1, .i32⟩
  | 20 => ⟨S_, .i32⟩
  | 21 => ⟨S16384x1, .i32⟩
  | 22 => ⟨S16384x1, .i1⟩
  | 23 => ⟨S_, .i32⟩
  | 24 => ⟨S16384x1, .i32⟩
  | 25 => ⟨S16384x1, .i32⟩
  | 26 => ⟨S16384x1, .i32⟩
  | 27 => ⟨S16384x1x1, .i32⟩
  | 28 => ⟨S1, .i32⟩
  | 29 => ⟨S_, .i32⟩
  | 30 => ⟨S16384x1x1, .i32⟩
  | 31 => ⟨S16384x1x1, .i1⟩
  | 32 => ⟨S1x1x1, .i32⟩
  | 33 => ⟨S16384x1x1, .i32⟩
  | 34 => ⟨S16384x1x1, .i1⟩
  | 35 => ⟨S16384x1x1, .i1⟩
  | 36 => ⟨S_, .i1⟩
  | 37 => ⟨S16384x1, .i1⟩
  | 38 => ⟨S16384x1, .i32⟩
  | 39 => ⟨S_, .i32⟩
  | 40 => ⟨S16384x1, .i32⟩
  | 41 => ⟨S16384x1, .i32⟩
  | 42 => ⟨S16384, .i32⟩
  | 43 => ⟨S_, .i32⟩
  | 44 => ⟨S16384, .i32⟩
  | 45 => ⟨S16384, .i32⟩
  | 46 => ⟨S_, .i32⟩
  | 47 => ⟨S16384, .i32⟩
  | 48 => ⟨S16384, .i1⟩
  | 49 => ⟨S_, .i32⟩
  | 50 => ⟨S_, .i32⟩
  | 51 => ⟨S16384, .i32⟩
  | 52 => ⟨S16384, .i32⟩
  | 53 => ⟨S_, .i32⟩
  | 54 => ⟨S16384, .i32⟩
  | 55 => ⟨S16384, .i1⟩
  | 56 => ⟨S_, .i32⟩
  | 57 => ⟨S16384, .i32⟩
  | 58 => ⟨S16384, .i32⟩
  | 59 => ⟨S16384, .i32⟩
  | 60 => ⟨S16384x1, .i32⟩
  | 61 => ⟨S16384x1024, .f32⟩
  | 62 => ⟨S_, .f32⟩
  | 63 => ⟨S64x513x1024, .f32⟩
  | 64 => ⟨S_, .i32⟩
  | 65 => ⟨S16384, .i32⟩
  | 66 => ⟨S16384, .i1⟩
  | 67 => ⟨S_, .i32⟩
  | 68 => ⟨S16384, .i32⟩
  | 69 => ⟨S16384, .i32⟩
  | 70 => ⟨S16384, .i32⟩
  | 71 => ⟨S_, .i32⟩
  | 72 => ⟨S16384, .i32⟩
  | 73 => ⟨S16384, .i1⟩
  | 74 => ⟨S_, .i32⟩
  | 75 => ⟨S16384, .i32⟩
  | 76 => ⟨S16384, .i32⟩
  | 77 => ⟨S16384, .i32⟩
  | 78 => ⟨S16384x1, .i32⟩
  | 79 => ⟨S16384x1, .i32⟩
  | 80 => ⟨S16384x2, .i32⟩
  | 81 => ⟨S64x513x1024, .f32⟩
  | 82 => ⟨S64x513x1024, .f32⟩
  | 83 => ⟨S64x513x512, .f32⟩
  | 84 => ⟨S64x513x512, .f32⟩
  | 85 => ⟨S64x513x512, .f32⟩
  | 86 => ⟨S64x513x512, .f32⟩
  | 87 => ⟨S_, .f32⟩
  | 88 => ⟨S64x513x512, .f32⟩
  | 89 => ⟨S64x513x512, .f32⟩
  | 90 => ⟨S_, .f32⟩
  | 91 => ⟨S64x513x512, .f32⟩
  | 92 => ⟨S64x513x512, .f32⟩
  | 93 => ⟨S64x513x512, .f32⟩
  | 94 => ⟨S64x513x512, .f32⟩
  | 95 => ⟨S64x513x1024, .f32⟩
  | 96 => ⟨S16384, .f32⟩
  | 97 => ⟨S16384, .f32⟩
  | 98 => ⟨S16384, .f32⟩
  | 99 => ⟨S_, .i32⟩
  | 100 => ⟨S16384, .i32⟩
  | 101 => ⟨S16384, .i1⟩
  | 102 => ⟨S_, .i32⟩
  | 103 => ⟨S16384, .i32⟩
  | 104 => ⟨S16384, .i32⟩
  | 105 => ⟨S16384, .i32⟩
  | 106 => ⟨S_, .i32⟩
  | 107 => ⟨S16384, .i32⟩
  | 108 => ⟨S16384, .i1⟩
  | 109 => ⟨S_, .i32⟩
  | 110 => ⟨S16384, .i32⟩
  | 111 => ⟨S16384, .i32⟩
  | 112 => ⟨S16384, .i32⟩
  | 113 => ⟨S16384x1, .i32⟩
  | 114 => ⟨S16384x1, .i32⟩
  | 115 => ⟨S16384x2, .i32⟩
  | 116 => ⟨S16384x1024, .f32⟩
  | 117 => ⟨S16384x1, .f32⟩
  | 118 => ⟨S16384x1024, .f32⟩
  | 119 => ⟨S16384x1024, .f32⟩
  | 120 => ⟨S_, .f32⟩
  | 121 => ⟨S4096x1024, .f32⟩
  | 122 => ⟨S_, .i32⟩
  | 123 => ⟨S16384, .i32⟩
  | 124 => ⟨S16384, .i1⟩
  | 125 => ⟨S_, .i32⟩
  | 126 => ⟨S16384, .i32⟩
  | 127 => ⟨S16384, .i32⟩
  | _ => ⟨S4096x1024, .f32⟩

abbrev hbmTy0_1 (i : Nat) : BufTy := match i % 128 with
  | 0 => ⟨S16384, .i32⟩
  | 1 => ⟨S16384x1, .i32⟩
  | 2 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_c : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_c_4 : Ref sig .tc := ⟨.hbm, 39, rfl⟩
abbrev main_call1_v14 : Ref sig .tc := ⟨.hbm, 40, rfl⟩
abbrev main_v13 : Ref sig .tc := ⟨.hbm, 41, rfl⟩
abbrev main_v14 : Ref sig .tc := ⟨.hbm, 42, rfl⟩
abbrev main_c : Ref sig .tc := ⟨.hbm, 43, rfl⟩
abbrev main_v15 : Ref sig .tc := ⟨.hbm, 44, rfl⟩
abbrev main_v16 : Ref sig .tc := ⟨.hbm, 45, rfl⟩
abbrev main_c_0 : Ref sig .tc := ⟨.hbm, 46, rfl⟩
abbrev main_v17 : Ref sig .tc := ⟨.hbm, 47, rfl⟩
abbrev main_v18 : Ref sig .tc := ⟨.hbm, 48, rfl⟩
abbrev main_c_1 : Ref sig .tc := ⟨.hbm, 49, rfl⟩
abbrev main_call2_v0 : Ref sig .tc := ⟨.hbm, 50, rfl⟩
abbrev main_call2_v1 : Ref sig .tc := ⟨.hbm, 51, rfl⟩
abbrev main_v19 : Ref sig .tc := ⟨.hbm, 52, rfl⟩
abbrev main_c_2 : Ref sig .tc := ⟨.hbm, 53, rfl⟩
abbrev main_v20 : Ref sig .tc := ⟨.hbm, 54, rfl⟩
abbrev main_v21 : Ref sig .tc := ⟨.hbm, 55, rfl⟩
abbrev main_c_3 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst : Ref sig .tc := ⟨.hbm, 62, rfl⟩
abbrev main_v27 : Ref sig .tc := ⟨.hbm, 63, rfl⟩
abbrev main_c_4 : Ref sig .tc := ⟨.hbm, 64, rfl⟩
abbrev main_v28 : Ref sig .tc := ⟨.hbm, 65, rfl⟩
abbrev main_v29 : Ref sig .tc := ⟨.hbm, 66, rfl⟩
abbrev main_c_5 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_c_6 : Ref sig .tc := ⟨.hbm, 71, rfl⟩
abbrev main_v33 : Ref sig .tc := ⟨.hbm, 72, rfl⟩
abbrev main_v34 : Ref sig .tc := ⟨.hbm, 73, rfl⟩
abbrev main_c_7 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_c_8 : Ref sig .tc := ⟨.hbm, 99, rfl⟩
abbrev main_v51 : Ref sig .tc := ⟨.hbm, 100, rfl⟩
abbrev main_v52 : Ref sig .tc := ⟨.hbm, 101, rfl⟩
abbrev main_c_9 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_c_10 : Ref sig .tc := ⟨.hbm, 106, rfl⟩
abbrev main_v56 : Ref sig .tc := ⟨.hbm, 107, rfl⟩
abbrev main_v57 : Ref sig .tc := ⟨.hbm, 108, rfl⟩
abbrev main_c_11 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_cst_12 : Ref sig .tc := ⟨.hbm, 120, rfl⟩
abbrev main_v68 : Ref sig .tc := ⟨.hbm, 121, rfl⟩
abbrev main_c_13 : Ref sig .tc := ⟨.hbm, 122, rfl⟩
abbrev main_v69 : Ref sig .tc := ⟨.hbm, 123, rfl⟩
abbrev main_v70 : Ref sig .tc := ⟨.hbm, 124, rfl⟩
abbrev main_c_14 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩

abbrev nD : Nat := 1
abbrev τ : Topo := Topo.v7x

variable {F : FTy → Type} [FloatOps F]

class Facts₀ : Prop where
  shapeCasts_S4096x4_S16384 : S4096x4.ShapeCasts S16384
  bcast_S4096_S4096x4_0 : S4096.BroadcastsInDim S4096x4 (![0] : Fin 1 → Fin S4096x4.rank)
  bcast_S16384_S16384x1_0 : S16384.BroadcastsInDim S16384x1 (![0] : Fin 1 → Fin S16384x1.rank)
  bcast_S64_S1x64_1 : S64.BroadcastsInDim S1x64 (![1] : Fin 1 → Fin S1x64.rank)
  bcast_S16384x1_S16384x64_0_1 : S16384x1.BroadcastsInDim S16384x64 (![0, 1] : Fin 2 → Fin S16384x64.rank)
  bcast_S1x64_S16384x64_0_1 : S1x64.BroadcastsInDim S16384x64 (![0, 1] : Fin 2 → Fin S16384x64.rank)
  natLt_1_32 : 1 < 32
  bcast_S_S_ : S_.BroadcastsInDim S_ (![] : Fin 0 → Fin S_.rank)
  reduceWindows_S16384x64_S16384x64_w16384s1p16383_0_w1s1p0_0 : S16384x64.ReduceWindows (![16384, 1] : Fin 2 → Nat) ![1, 1] ![16383, 0] ![0, 0] S16384x64
  h_S_ : 0 < S_.numel
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  bcast_S_S16384 : S_.BroadcastsInDim S16384 (![] : Fin 0 → Fin S16384.rank)
  bcast_S_S64x513x1024 : S_.BroadcastsInDim S64x513x1024 (![] : Fin 0 → Fin S64x513x1024.rank)
  concatenates_S16384x1_S16384x1_S16384x2_d1 : Shape.Concatenates [S16384x1, S16384x1] S16384x2 1
  slices_S64x513x1024_S64x513x512_0_0_0 : S64x513x1024.Slices ![0, 0, 0] S64x513x512
  slices_S64x513x1024_S64x513x512_0_0_512 : S64x513x1024.Slices ![0, 0, 512] S64x513x512
  bcast_S_S64x513x512 : S_.BroadcastsInDim S64x513x512 (![] : Fin 0 → Fin S64x513x512.rank)
  bcast_S16384x1_S16384x1024_0_1 : S16384x1.BroadcastsInDim S16384x1024 (![0, 1] : Fin 2 → Fin S16384x1024.rank)
  bcast_S_S4096x1024 : S_.BroadcastsInDim S4096x1024 (![] : Fin 0 → Fin S4096x1024.rank)
  gather_S16384x64_S16384x1x1_S16384x1_n_1_0_0_1_2_11_wf : GatherDims.WF S16384x64 S16384x1x1 S16384x1 [] [1] [0] [1] [0] 2 ![1, 1]
  gather_S4096x1024_S16384x1_S16384x1024_1_0_n_n_0_1_11024_wf : GatherDims.WF S4096x1024 S16384x1 S16384x1024 [1] [0] [] [0] [] 1 ![1, 1024]
  scatter_S64x513x1024_S16384x2_S16384x1024_1_01_01_1_wf : ScatterDims.WF S64x513x1024 S16384x2 S16384x1024 [1] [0, 1] [0, 1] 1
  dot_S64x513x1024_S64x1024x1024_S64x513x1024_2_2_1_1_0_0_wf : DotDims.WF S64x513x1024 S64x1024x1024 S64x513x1024 [2] [2] [1] [1] [0] [0]
  dot_S64x513x512_S64x1024x512_S64x513x1024_2_2_1_1_0_0_wf : DotDims.WF S64x513x512 S64x1024x512 S64x513x1024 [2] [2] [1] [1] [0] [0]
  gather_S64x513x1024_S16384x2_S16384x1024_1_01_n_n_01_1_111024_wf : GatherDims.WF S64x513x1024 S16384x2 S16384x1024 [1] [0, 1] [] [0, 1] [] 1 ![1, 1, 1024]
  scatter_S4096x1024_S16384x1_S16384x1024_1_0_0_1_wf : ScatterDims.WF S4096x1024 S16384x1 S16384x1024 [1] [0] [0] 1

variable [Facts₀]

def gather_S16384x64_S16384x1x1_S16384x1_n_1_0_0_1_2_11 : GatherDims S16384x64 S16384x1x1 S16384x1 where
  offsetDims := []
  collapsedSliceDims := [1]
  operandBatchingDims := [0]
  startIndicesBatchingDims := [0]
  startIndexMap := [1]
  indexVectorDim := 2
  sliceSizes := ![1, 1]
  wf := gather_S16384x64_S16384x1x1_S16384x1_n_1_0_0_1_2_11_wf
def gather_S4096x1024_S16384x1_S16384x1024_1_0_n_n_0_1_11024 : GatherDims S4096x1024 S16384x1 S16384x1024 where
  offsetDims := [1]
  collapsedSliceDims := [0]
  operandBatchingDims := []
  startIndicesBatchingDims := []
  startIndexMap := [0]
  indexVectorDim := 1
  sliceSizes := ![1, 1024]
  wf := gather_S4096x1024_S16384x1_S16384x1024_1_0_n_n_0_1_11024_wf
def scatter_S64x513x1024_S16384x2_S16384x1024_1_01_01_1 : ScatterDims S64x513x1024 S16384x2 S16384x1024 where
  updateWindowDims := [1]
  insertedWindowDims := [0, 1]
  scatterDimsToOperandDims := [0, 1]
  indexVectorDim := 1
  wf := scatter_S64x513x1024_S16384x2_S16384x1024_1_01_01_1_wf
def dot_S64x513x1024_S64x1024x1024_S64x513x1024_2_2_1_1_0_0 : DotDims S64x513x1024 S64x1024x1024 S64x513x1024 where
  lhsContracting := [2]
  rhsContracting := [2]
  lhsNonContracting := [1]
  rhsNonContracting := [1]
  lhsBatch := [0]
  rhsBatch := [0]
  wf := dot_S64x513x1024_S64x1024x1024_S64x513x1024_2_2_1_1_0_0_wf
def dot_S64x513x512_S64x1024x512_S64x513x1024_2_2_1_1_0_0 : DotDims S64x513x512 S64x1024x512 S64x513x1024 where
  lhsContracting := [2]
  rhsContracting := [2]
  lhsNonContracting := [1]
  rhsNonContracting := [1]
  lhsBatch := [0]
  rhsBatch := [0]
  wf := dot_S64x513x512_S64x1024x512_S64x513x1024_2_2_1_1_0_0_wf
def gather_S64x513x1024_S16384x2_S16384x1024_1_01_n_n_01_1_111024 : GatherDims S64x513x1024 S16384x2 S16384x1024 where
  offsetDims := [1]
  collapsedSliceDims := [0, 1]
  operandBatchingDims := []
  startIndicesBatchingDims := []
  startIndexMap := [0, 1]
  indexVectorDim := 1
  sliceSizes := ![1, 1, 1024]
  wf := gather_S64x513x1024_S16384x2_S16384x1024_1_01_n_n_01_1_111024_wf
def scatter_S4096x1024_S16384x1_S16384x1024_1_0_0_1 : ScatterDims S4096x1024 S16384x1 S16384x1024 where
  updateWindowDims := [1]
  insertedWindowDims := [0]
  scatterDimsToOperandDims := [0]
  indexVectorDim := 1
  wf := scatter_S4096x1024_S16384x1_S16384x1024_1_0_0_1_wf

class Facts : Prop extends Facts₀ where

variable [Facts]
-- ==== Proof.Spec.lean ====
/-
  What one expert computes on its dispatched buffer, as one function of the arrays, index by index,
  over the extended reals: row `r` of expert `e`'s buffer is projected onto the expert's 1024 gate/up
  rows (`proj`), the first 512 projections are gated by `x · logistic x` and multiplied by the last
  512 (`glu`), and the 512 gated values are projected back through the expert's down matrix
  (`expertOut`). Both programs compute this array between the dispatch and the combine.
-/
import Idealize.ShloMosaic.PureOps.Ideal
import Idealize.ShloMosaic.Lib.ValueIdx

noncomputable section

open scoped BigOperators

namespace Cert.Moe

open Idealize.ShloMosaic Idealize.ShloMosaic.ValueIdx

/-- The per-expert buffers: 64 experts, 512 slots and one overflow slot, 1024 features. -/
abbrev SBuf : Shape := ⟨3, ![64, 513, 1024]⟩
/-- The gate/up matrices: per expert 1024 output rows (512 gate, 512 up) over 1024 features. -/
abbrev SGateUp : Shape := ⟨3, ![64, 1024, 1024]⟩
/-- The down matrices: per expert 1024 output features over 512 hidden values. -/
abbrev SDown : Shape := ⟨3, ![64, 1024, 512]⟩

/-- Output row `o` of expert `e`'s gate/up matrix applied to row `r` of its buffer. -/
def proj (B : SBuf.Idx → EReal) (W : SGateUp.Idx → EReal) (e : Fin 64) (r : Fin 513) (o : Fin 1024) : EReal :=
  ∑ k : Fin 1024, B (ix3 e r k) * W (ix3 e o k)

/-- Hidden position `i` as a gate row. -/
def gateRow (i : Fin 512) : Fin 1024 := ⟨i.val, by omega⟩
/-- Hidden position `i` as an up row. -/
def upRow (i : Fin 512) : Fin 1024 := ⟨i.val + 512, by omega⟩

/-- The gated hidden value: `silu (gate) · up`, with `silu x = x · logistic x`. -/
def glu (B : SBuf.Idx → EReal) (W : SGateUp.Idx → EReal) (e : Fin 64) (r : Fin 513) (i : Fin 512) : EReal :=
  proj B W e r (gateRow i) * Ideal.logistic (proj B W e r (gateRow i)) * proj B W e r (upRow i)

/-- The experts' outputs: at (e, r, h) the down matrix's row `h` applied to the gated hidden values of row `r`. -/
def expertOut (B : SBuf.Idx → EReal) (W : SGateUp.Idx → EReal) (D : SDown.Idx → EReal) : SBuf.Idx → EReal :=
  fun j => ∑ i : Fin 512, glu B W (j 0) (j 1) i * D (ix3 (j 0) (j 2) i)

end Cert.Moe

end
-- ==== Proof.Glue.lean ====
/-
  The host computation both programs share, as functions of the argument arrays.
  Dispatch: pair p = (token p / 4, choice p % 4) goes to expert `flatE p`; its position among the pairs of
  that expert is the running count of the expert's one-hot column up to p, less one (`pos`); a pair whose
  position is below the capacity 512 is `valid` and takes that slot, any other takes the overflow slot 512
  (`slot`); the per-expert buffers are zeros overwritten, at (expert, slot), by the pair's token row (`buf`).
  Combine: each pair reads its (expert, slot) row of the experts' outputs, scales it by its routing weight
  (zero for an invalid pair) and the rows are summed into their tokens (`combine`).
  A negative index is wrapped once by the axis length (`wrap`).
-/
import proofs.«173037_j78443282694942_1_alg».proof.Proof.Gen.KernelIdeal
import proofs.«173037_j78443282694942_1_alg».proof.Proof.Spec

noncomputable section

namespace Cert.KernelIdeal.MoeGlue

open Idealize.ShloMosaic Idealize.SL.Sem
open Cert.KernelIdeal Cert.KernelIdeal.Gen

variable {F : FTy → Type} [FloatOps F]

/-- A 32-bit constant at every pair. -/
def splat (n : BitVec 32) : (⟨S16384, .i32⟩ : BufTy).Contents (Elt F) :=
  broadcastInDim S16384 ![] bcast_S_S16384 (constantI S_ 32 n)

/-- A negative index wrapped by the axis length `n`. -/
def wrap (n : BitVec 32) (x : (⟨S16384, .i32⟩ : BufTy).Contents (Elt F)) : (⟨S16384, .i32⟩ : BufTy).Contents (Elt F) :=
  select (cmpi .slt x (splat (F := F) 0#32)) (addi x (splat (F := F) n)) x

/-- The expert of each pair: the routing table flattened. -/
def flatE (a1 : (⟨S4096x4, .i32⟩ : BufTy).Contents (Elt F)) : (⟨S16384, .i32⟩ : BufTy).Contents (Elt F) :=
  fun i => shapeCast S16384 a1 shapeCasts_S4096x4_S16384 i

/-- The token of each pair: 0,0,0,0,1,1,1,1,… -/
def tokIdx : (⟨S16384, .i32⟩ : BufTy).Contents (Elt F) :=
  fun i => shapeCast S16384 (broadcastInDim S4096x4 ![0] bcast_S4096_S4096x4_0 (iotaInDim S4096 32 0)) shapeCasts_S4096x4_S16384 i

/-- The one-hot rows of the pairs' experts, as 32-bit words. -/
def onehot (e : (⟨S16384, .i32⟩ : BufTy).Contents (Elt F)) : (⟨S16384x64, .i32⟩ : BufTy).Contents (Elt F) :=
  extui 32 (cmpi .eq (broadcastInDim S16384x64 ![0, 1] bcast_S16384x1_S16384x64_0_1 (broadcastInDim S16384x1 ![0] bcast_S16384_S16384x1_0 e))
    (broadcastInDim S16384x64 ![0, 1] bcast_S1x64_S16384x64_0_1 (broadcastInDim S1x64 ![1] bcast_S64_S1x64_1 (iotaInDim S64 32 0)))) natLt_1_32

/-- The running column sums. -/
def cumsum (x : (⟨S16384x64, .i32⟩ : BufTy).Contents (Elt F)) : (⟨S16384x64, .i32⟩ : BufTy).Contents (Elt F) :=
  Host.reduceWindow IntOp.addi ![16384, 1] ![1, 1] ![16383, 0] ![0, 0] x (broadcastInDim S_ ![] bcast_S_S_ (constantI S_ 32 0#32))
    reduceWindows_S16384x64_S16384x64_w16384s1p16383_0_w1s1p0_0 h_S_

/-- A row's entry at the row's own column index (wrapped if negative; the fill value where it is out of range). -/
def takeAlong (x : (⟨S16384x64, .i32⟩ : BufTy).Contents (Elt F)) (i : (⟨S16384x1, .i32⟩ : BufTy).Contents (Elt F)) :
    (⟨S16384x1, .i32⟩ : BufTy).Contents (Elt F) :=
  select
    (Host.reduce IntOp.andi
      (andi
        (cmpi .sge
          (fun j => shapeCast S16384x1x1 (select (cmpi .slt i (broadcastInDim S16384x1 ![] bcast_S_S16384x1 (constantI S_ 32 0#32))) (addi i (broadcastInDim S16384x1 ![] bcast_S_S16384x1 (constantI S_ 32 64#32))) i) shapeCasts_S16384x1_S16384x1x1 j)
          (broadcastInDim S16384x1x1 ![] bcast_S_S16384x1x1 (constantI S_ 32 0#32)))
        (cmpi .sle
          (fun j => shapeCast S16384x1x1 (select (cmpi .slt i (broadcastInDim S16384x1 ![] bcast_S_S16384x1 (constantI S_ 32 0#32))) (addi i (broadcastInDim S16384x1 ![] bcast_S_S16384x1 (constantI S_ 32 64#32))) i) shapeCasts_S16384x1_S16384x1x1 j)
          (broadcastInDim S16384x1x1 ![0, 1, 2] bcast_S1x1x1_S16384x1x1_0_1_2 (broadcastInDim S1x1x1 ![2] bcast_S1_S1x1x1_2 (constantI S1 32 63#32)))))
      (constantI S_ 1 1#1) reducesTo_S16384x1x1_S16384x1_d2 h_S_)
    (Host.gather gather_S16384x64_S16384x1x1_S16384x1_n_1_0_0_1_2_11 x
      (fun j => shapeCast S16384x1x1 (select (cmpi .slt i (broadcastInDim S16384x1 ![] bcast_S_S16384x1 (constantI S_ 32 0#32))) (addi i (broadcastInDim S16384x1 ![] bcast_S_S16384x1 (constantI S_ 32 64#32))) i) shapeCasts_S16384x1_S16384x1x1 j))
    (broadcastInDim S16384x1 ![] bcast_S_S16384x1 (constantI S_ 32 2147483648#32))

/-- Each pair's position among the pairs of its expert, from 0. -/
def pos (a1 : (⟨S4096x4, .i32⟩ : BufTy).Contents (Elt F)) : (⟨S16384, .i32⟩ : BufTy).Contents (Elt F) :=
  subi (fun i => shapeCast S16384 (takeAlong (cumsum (onehot (flatE a1))) (broadcastInDim S16384x1 ![0] bcast_S16384_S16384x1_0 (flatE a1))) shapeCasts_S16384x1_S16384 i)
    (splat (F := F) 1#32)

/-- The pairs that fit their expert's capacity. -/
def valid (a1 : (⟨S4096x4, .i32⟩ : BufTy).Contents (Elt F)) : (⟨S16384, .i1⟩ : BufTy).Contents (Elt F) :=
  cmpi .slt (pos a1) (splat (F := F) 512#32)

/-- Each pair's slot: its position, or the overflow slot. -/
def slot (a1 : (⟨S4096x4, .i32⟩ : BufTy).Contents (Elt F)) : (⟨S16384, .i32⟩ : BufTy).Contents (Elt F) :=
  select (valid a1) (pos a1) (broadcastInDim S16384 ![] bcast_S_S16384 (id (constantI S_ 32 512#32)))

/-- The (expert, slot) index pairs of experts `e` and slots `sl`. -/
def where2 (e sl : (⟨S16384, .i32⟩ : BufTy).Contents (Elt F)) : (⟨S16384x2, .i32⟩ : BufTy).Contents (Elt F) :=
  concatenate S16384x2 1
    [⟨S16384x1, broadcastInDim S16384x1 ![0] bcast_S16384_S16384x1_0 (wrap 64#32 e)⟩,
     ⟨S16384x1, broadcastInDim S16384x1 ![0] bcast_S16384_S16384x1_0 (wrap 513#32 sl)⟩]
    concatenates_S16384x1_S16384x1_S16384x2_d1

/-- Zeros overwritten at (expert, slot) by the pair's token row. -/
def scatterRows (a0 : (⟨S4096x1024, .f32⟩ : BufTy).Contents (Elt F)) (e sl tk : (⟨S16384, .i32⟩ : BufTy).Contents (Elt F)) :
    (⟨S64x513x1024, .f32⟩ : BufTy).Contents (Elt F) :=
  Host.scatter scatter_S64x513x1024_S16384x2_S16384x1024_1_01_01_1 (fun _ b => b)
    (broadcastInDim S64x513x1024 ![] bcast_S_S64x513x1024 (constant S_ .f32 0x00000000#32))
    (where2 e sl)
    (Host.gather gather_S4096x1024_S16384x1_S16384x1024_1_0_n_n_0_1_11024 a0
      (broadcastInDim S16384x1 ![0] bcast_S16384_S16384x1_0 (wrap 4096#32 tk)))

/-- The per-expert buffers. -/
def buf (a0 : (⟨S4096x1024, .f32⟩ : BufTy).Contents (Elt F)) (a1 : (⟨S4096x4, .i32⟩ : BufTy).Contents (Elt F)) :
    (⟨S64x513x1024, .f32⟩ : BufTy).Contents (Elt F) :=
  scatterRows a0 (flatE a1) (slot a1) (tokIdx (F := F))

/-- Each pair's (expert, slot) row of `y`, scaled by its weight where the pair is valid (by zero where not), summed
    into the pair's token. -/
def gatherRows (y : (⟨S64x513x1024, .f32⟩ : BufTy).Contents (Elt F)) (e sl : (⟨S16384, .i32⟩ : BufTy).Contents (Elt F))
    (vl : (⟨S16384, .i1⟩ : BufTy).Contents (Elt F)) (tk : (⟨S16384, .i32⟩ : BufTy).Contents (Elt F))
    (a2 : (⟨S4096x4, .f32⟩ : BufTy).Contents (Elt F)) : (⟨S4096x1024, .f32⟩ : BufTy).Contents (Elt F) :=
  Host.scatterAdd scatter_S4096x1024_S16384x1_S16384x1024_1_0_0_1
    (broadcastInDim S4096x1024 ![] bcast_S_S4096x1024 (constant S_ .f32 0x00000000#32))
    (broadcastInDim S16384x1 ![0] bcast_S16384_S16384x1_0 (wrap 4096#32 tk))
    (mulf (Host.gather gather_S64x513x1024_S16384x2_S16384x1024_1_01_n_n_01_1_111024 y (where2 e sl))
      (broadcastInDim S16384x1024 ![0, 1] bcast_S16384x1_S16384x1024_0_1
        (broadcastInDim S16384x1 ![0] bcast_S16384_S16384x1_0
          (mulf (fun i => shapeCast S16384 a2 shapeCasts_S4096x4_S16384 i) (uitofp .f32 vl)))))

/-- The combine of the experts' outputs `y`. -/
def combine (y : (⟨S64x513x1024, .f32⟩ : BufTy).Contents (Elt F)) (a1 : (⟨S4096x4, .i32⟩ : BufTy).Contents (Elt F))
    (a2 : (⟨S4096x4, .f32⟩ : BufTy).Contents (Elt F)) : (⟨S4096x1024, .f32⟩ : BufTy).Contents (Elt F) :=
  gatherRows y (flatE a1) (slot a1) (valid a1) (tokIdx (F := F)) a2

/-- The whole computation over the extended reals: dispatch, the experts' stage, combine. -/
def result (a0 : (⟨S4096x1024, .f32⟩ : BufTy).Contents (Elt Ideal)) (a1 : (⟨S4096x4, .i32⟩ : BufTy).Contents (Elt Ideal))
    (a2 : (⟨S4096x4, .f32⟩ : BufTy).Contents (Elt Ideal)) (a3 : (⟨S64x1024x1024, .f32⟩ : BufTy).Contents (Elt Ideal))
    (a4 : (⟨S64x1024x512, .f32⟩ : BufTy).Contents (Elt Ideal)) : (⟨S4096x1024, .f32⟩ : BufTy).Contents (Elt Ideal) :=
  combine (F := Ideal) (Cert.Moe.expertOut (buf (F := Ideal) a0 a1) a3 a4) a1 a2

end Cert.KernelIdeal.MoeGlue

end
-- ==== Proof.KernelReads.lean ====
/-
  What the host lines before the region leave in the buffers that later lines read, stage by stage: the
  pairs' experts and tokens and the one-hot rows; their running column sums; each pair's own column of them;
  the pair's position, its validity and the capacity constant; its slot; and the scatter of the token rows into
  the per-expert buffers. Each stage reads the stage before through the buffers, so no value is computed twice.
-/
import proofs.«173037_j78443282694942_1_alg».proof.Proof.Gen.KernelIdeal.Frame
import proofs.«173037_j78443282694942_1_alg».proof.Proof.Glue
import Idealize.ShloMosaic.Lib.StableHlo.Run
import Idealize.ShloMosaic.Lib.Pipeline.Frame

set_option maxRecDepth 8192

noncomputable section

namespace Cert.KernelIdeal.MoeReads

open Idealize.ShloMosaic Idealize.ShloMosaic.TcCoe Idealize.SL.Sem Idealize.ShloMosaic.StableHlo
open Cert.KernelIdeal Cert.KernelIdeal.Gen

variable {F : FTy → Type} [FloatOps F]

/-- One stage read at one buffer: the stage's operations unfolded, each operation's result at its own buffer its
    function's value and at any other buffer what was there; a called function's typed references transport along
    an equation between a type and itself, which is the identity. -/
local macro "read_stage" ops:ident : tactic =>
  `(tactic| (simp only [$ops:ident]; after_results; try simp only [TRef.toBuf, TRef.ofBuf, cast_eq]; try rfl))

/-- A buffer no operation of a stage writes keeps its contents: each operation writes its one result buffer, another. -/
local macro "keep_stage" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Stage 0: the flattened routing table, the tokens, the one-hot rows -/

theorem s0_v0 (X : Valuation τ sig (Elt F)) :
    after hostOps0 X (Proc.devRef .tc main_v0) = MoeGlue.flatE (X (Proc.devRef .tc main_arg1)) := by read_stage hostOps0
theorem s0_v3 (X : Valuation τ sig (Elt F)) :
    after hostOps0 X (Proc.devRef .tc main_v3) = MoeGlue.tokIdx (F := F) := by read_stage hostOps0
theorem s0_v10 (X : Valuation τ sig (Elt F)) :
    after hostOps0 X (Proc.devRef .tc main_v10) = MoeGlue.onehot (MoeGlue.flatE (X (Proc.devRef .tc main_arg1))) := by read_stage hostOps0
theorem s0_arg0 (X : Valuation τ sig (Elt F)) :
    after hostOps0 X (Proc.devRef .tc main_arg0) = X (Proc.devRef .tc main_arg0) := by keep_stage hostOps0
theorem s0_arg2 (X : Valuation τ sig (Elt F)) :
    after hostOps0 X (Proc.devRef .tc main_arg2) = X (Proc.devRef .tc main_arg2) := by keep_stage hostOps0

/-! ## Stage 1: the running column sums -/

theorem s1_v11 (X : Valuation τ sig (Elt F)) :
    after hostOps0_1 X (Proc.devRef .tc main_v11) = MoeGlue.cumsum (X (Proc.devRef .tc main_v10)) := by read_stage hostOps0_1
theorem s1_v0 (X : Valuation τ sig (Elt F)) :
    after hostOps0_1 X (Proc.devRef .tc main_v0) = X (Proc.devRef .tc main_v0) := by keep_stage hostOps0_1
theorem s1_v3 (X : Valuation τ sig (Elt F)) :
    after hostOps0_1 X (Proc.devRef .tc main_v3) = X (Proc.devRef .tc main_v3) := by keep_stage hostOps0_1
theorem s1_arg0 (X : Valuation τ sig (Elt F)) :
    after hostOps0_1 X (Proc.devRef .tc main_arg0) = X (Proc.devRef .tc main_arg0) := by keep_stage hostOps0_1
theorem s1_arg2 (X : Valuation τ sig (Elt F)) :
    after hostOps0_1 X (Proc.devRef .tc main_arg2) = X (Proc.devRef .tc main_arg2) := by keep_stage hostOps0_1

/-! ## Stage 2: the pairs' experts as a column -/

theorem s2_v12 (X : Valuation τ sig (Elt F)) :
    after hostOps0_2 X (Proc.devRef .tc main_v12) = broadcastInDim S16384x1 ![0] bcast_S16384_S16384x1_0 (X (Proc.devRef .tc main_v0)) := by
  read_stage hostOps0_2
theorem s2_v11 (X : Valuation τ sig (Elt F)) :
    after hostOps0_2 X (Proc.devRef .tc main_v11) = X (Proc.devRef .tc main_v11) := by keep_stage hostOps0_2
theorem s2_v0 (X : Valuation τ sig (Elt F)) :
    after hostOps0_2 X (Proc.devRef .tc main_v0) = X (Proc.devRef .tc main_v0) := by keep_stage hostOps0_2
theorem s2_v3 (X : Valuation τ sig (Elt F)) :
    after hostOps0_2 X (Proc.devRef .tc main_v3) = X (Proc.devRef .tc main_v3) := by keep_stage hostOps0_2
theorem s2_arg0 (X : Valuation τ sig (Elt F)) :
    after hostOps0_2 X (Proc.devRef .tc main_arg0) = X (Proc.devRef .tc main_arg0) := by keep_stage hostOps0_2
theorem s2_arg2 (X : Valuation τ sig (Elt F)) :
    after hostOps0_2 X (Proc.devRef .tc main_arg2) = X (Proc.devRef .tc main_arg2) := by keep_stage hostOps0_2

/-! ## Stage 3: each pair's own column of the running sums -/

set_option maxHeartbeats 2000000 in
theorem s3_v13 (X : Valuation τ sig (Elt F)) :
    after hostOps0_3 X (Proc.devRef .tc main_v13) = MoeGlue.takeAlong (X (Proc.devRef .tc main_v11)) (X (Proc.devRef .tc main_v12)) := by
  read_stage hostOps0_3
theorem s3_v0 (X : Valuation τ sig (Elt F)) :
    after hostOps0_3 X (Proc.devRef .tc main_v0) = X (Proc.devRef .tc main_v0) := by keep_stage hostOps0_3
theorem s3_v3 (X : Valuation τ sig (Elt F)) :
    after hostOps0_3 X (Proc.devRef .tc main_v3) = X (Proc.devRef .tc main_v3) := by keep_stage hostOps0_3
theorem s3_arg0 (X : Valuation τ sig (Elt F)) :
    after hostOps0_3 X (Proc.devRef .tc main_arg0) = X (Proc.devRef .tc main_arg0) := by keep_stage hostOps0_3
theorem s3_arg2 (X : Valuation τ sig (Elt F)) :
    after hostOps0_3 X (Proc.devRef .tc main_arg2) = X (Proc.devRef .tc main_arg2) := by keep_stage hostOps0_3

/-! ## Stage 4: the position, the validity, the capacity constant -/

theorem s4_v16 (X : Valuation τ sig (Elt F)) :
    after hostOps0_4 X (Proc.devRef .tc main_v16)
      = subi (fun i => shapeCast S16384 (X (Proc.devRef .tc main_v13)) shapeCasts_S16384x1_S16384 i) (MoeGlue.splat (F := F) 1#32) := by
  read_stage hostOps0_4
theorem s4_v18 (X : Valuation τ sig (Elt F)) :
    after hostOps0_4 X (Proc.devRef .tc main_v18)
      = cmpi .slt (subi (fun i => shapeCast S16384 (X (Proc.devRef .tc main_v13)) shapeCasts_S16384x1_S16384 i) (MoeGlue.splat (F := F) 1#32))
          (MoeGlue.splat (F := F) 512#32) := by
  read_stage hostOps0_4
theorem s4_c1 (X : Valuation τ sig (Elt F)) :
    after hostOps0_4 X (Proc.devRef .tc main_c_1) = constantI S_ 32 512#32 := by read_stage hostOps0_4
theorem s4_v0 (X : Valuation τ sig (Elt F)) :
    after hostOps0_4 X (Proc.devRef .tc main_v0) = X (Proc.devRef .tc main_v0) := by keep_stage hostOps0_4
theorem s4_v3 (X : Valuation τ sig (Elt F)) :
    after hostOps0_4 X (Proc.devRef .tc main_v3) = X (Proc.devRef .tc main_v3) := by keep_stage hostOps0_4
theorem s4_arg0 (X : Valuation τ sig (Elt F)) :
    after hostOps0_4 X (Proc.devRef .tc main_arg0) = X (Proc.devRef .tc main_arg0) := by keep_stage hostOps0_4
theorem s4_arg2 (X : Valuation τ sig (Elt F)) :
    after hostOps0_4 X (Proc.devRef .tc main_arg2) = X (Proc.devRef .tc main_arg2) := by keep_stage hostOps0_4

/-! ## Stage 5: the slot -/

theorem s5_v19 (X : Valuation τ sig (Elt F)) :
    after hostOps0_5 X (Proc.devRef .tc main_v19)
      = select (X (Proc.devRef .tc main_v18)) (X (Proc.devRef .tc main_v16)) (broadcastInDim S16384 ![] bcast_S_S16384 (id (X (Proc.devRef .tc main_c_1)))) := by
  read_stage hostOps0_5
theorem s5_v18 (X : Valuation τ sig (Elt F)) :
    after hostOps0_5 X (Proc.devRef .tc main_v18) = X (Proc.devRef .tc main_v18) := by keep_stage hostOps0_5
theorem s5_v0 (X : Valuation τ sig (Elt F)) :
    after hostOps0_5 X (Proc.devRef .tc main_v0) = X (Proc.devRef .tc main_v0) := by keep_stage hostOps0_5
theorem s5_v3 (X : Valuation τ sig (Elt F)) :
    after hostOps0_5 X (Proc.devRef .tc main_v3) = X (Proc.devRef .tc main_v3) := by keep_stage hostOps0_5
theorem s5_arg0 (X : Valuation τ sig (Elt F)) :
    after hostOps0_5 X (Proc.devRef .tc main_arg0) = X (Proc.devRef .tc main_arg0) := by keep_stage hostOps0_5
theorem s5_arg2 (X : Valuation τ sig (Elt F)) :
    after hostOps0_5 X (Proc.devRef .tc main_arg2) = X (Proc.devRef .tc main_arg2) := by keep_stage hostOps0_5

/-! ## Stage 6: the per-expert buffers -/

set_option maxHeartbeats 4000000 in
theorem s6_v41 (X : Valuation τ sig (Elt F)) :
    after hostOps0_6 X (Proc.devRef .tc main_v41)
      = MoeGlue.scatterRows (X (Proc.devRef .tc main_arg0)) (X (Proc.devRef .tc main_v0)) (X (Proc.devRef .tc main_v19)) (X (Proc.devRef .tc main_v3)) := by
  simp only [hostOps0_6]; after_results
  unfold MoeGlue.scatterRows MoeGlue.where2 MoeGlue.wrap MoeGlue.splat
  rfl
theorem s6_v0 (X : Valuation τ sig (Elt F)) :
    after hostOps0_6 X (Proc.devRef .tc main_v0) = X (Proc.devRef .tc main_v0) := by keep_stage hostOps0_6
theorem s6_v3 (X : Valuation τ sig (Elt F)) :
    after hostOps0_6 X (Proc.devRef .tc main_v3) = X (Proc.devRef .tc main_v3) := by keep_stage hostOps0_6
theorem s6_v18 (X : Valuation τ sig (Elt F)) :
    after hostOps0_6 X (Proc.devRef .tc main_v18) = X (Proc.devRef .tc main_v18) := by keep_stage hostOps0_6
theorem s6_v19 (X : Valuation τ sig (Elt F)) :
    after hostOps0_6 X (Proc.devRef .tc main_v19) = X (Proc.devRef .tc main_v19) := by keep_stage hostOps0_6
theorem s6_arg2 (X : Valuation τ sig (Elt F)) :
    after hostOps0_6 X (Proc.devRef .tc main_arg2) = X (Proc.devRef .tc main_arg2) := by keep_stage hostOps0_6

/-! ## The stages composed -/

/-- The host operations before the region, in order. -/
abbrev dispatchOps : List (HloOp τ sig (Elt F)) :=
  List.flatten [hostOps0, hostOps0_1, hostOps0_2, hostOps0_3, hostOps0_4, hostOps0_5, hostOps0_6]

/-- They run stage after stage. -/
theorem dispatch_split (L : Valuation τ sig (Elt F)) :
    after dispatchOps L
      = after hostOps0_6 (after hostOps0_5 (after hostOps0_4 (after hostOps0_3 (after hostOps0_2 (after hostOps0_1 (after hostOps0 L)))))) := by
  simp only [dispatchOps, List.flatten_cons, List.flatten_nil, List.append_nil, StableHlo.after_append]

/-- The pairs' experts end in `main_v0`, -/
theorem dispatch_v0 (L : Valuation τ sig (Elt F)) :
    after dispatchOps L (Proc.devRef .tc main_v0) = MoeGlue.flatE (L (Proc.devRef .tc main_arg1)) := by
  rw [dispatch_split, s6_v0, s5_v0, s4_v0, s3_v0, s2_v0, s1_v0, s0_v0]

/-- their tokens in `main_v3`, -/
theorem dispatch_v3 (L : Valuation τ sig (Elt F)) :
    after dispatchOps L (Proc.devRef .tc main_v3) = MoeGlue.tokIdx (F := F) := by
  rw [dispatch_split, s6_v3, s5_v3, s4_v3, s3_v3, s2_v3, s1_v3, s0_v3]

/-- each pair's own column of the running sums, after stage 3, is the library's term of the routing table, -/
theorem stage3_v13 (L : Valuation τ sig (Elt F)) :
    after hostOps0_3 (after hostOps0_2 (after hostOps0_1 (after hostOps0 L))) (Proc.devRef .tc main_v13)
      = MoeGlue.takeAlong (MoeGlue.cumsum (MoeGlue.onehot (MoeGlue.flatE (L (Proc.devRef .tc main_arg1)))))
          (broadcastInDim S16384x1 ![0] bcast_S16384_S16384x1_0 (MoeGlue.flatE (L (Proc.devRef .tc main_arg1)))) := by
  rw [s3_v13, s2_v11, s2_v12, s1_v11, s1_v0, s0_v10, s0_v0]

/-- their validity in `main_v18`, -/
theorem dispatch_v18 (L : Valuation τ sig (Elt F)) :
    after dispatchOps L (Proc.devRef .tc main_v18) = MoeGlue.valid (L (Proc.devRef .tc main_arg1)) := by
  rw [dispatch_split, s6_v18, s5_v18, s4_v18, stage3_v13]
  rfl

/-- their slots in `main_v19`, -/
theorem dispatch_v19 (L : Valuation τ sig (Elt F)) :
    after dispatchOps L (Proc.devRef .tc main_v19) = MoeGlue.slot (L (Proc.devRef .tc main_arg1)) := by
  rw [dispatch_split, s6_v19, s5_v19, s4_v18, s4_v16, s4_c1, stage3_v13]
  rfl

/-- the per-expert buffers in `main_v41`, -/
theorem dispatch_v41 (L : Valuation τ sig (Elt F)) :
    after dispatchOps L (Proc.devRef .tc main_v41)
      = MoeGlue.buf (L (Proc.devRef .tc main_arg0)) (L (Proc.devRef .tc main_arg1)) := by
  rw [dispatch_split, s6_v41, s5_v19, s4_v18, s4_v16, s4_c1, stage3_v13,
    s5_arg0, s4_arg0, s3_arg0, s2_arg0, s1_arg0, s0_arg0,
    s5_v0, s4_v0, s3_v0, s2_v0, s1_v0, s0_v0,
    s5_v3, s4_v3, s3_v3, s2_v3, s1_v3, s0_v3]
  rfl

/-- and the routing weights where they were. -/
theorem dispatch_arg2 (L : Valuation τ sig (Elt F)) :
    after dispatchOps L (Proc.devRef .tc main_arg2) = L (Proc.devRef .tc main_arg2) := by
  rw [dispatch_split, s6_arg2, s5_arg2, s4_arg2, s3_arg2, s2_arg2, s1_arg2, s0_arg2]

set_option maxHeartbeats 4000000 in
/-- The lines after the region combine the region's output array with what the dispatch left. -/
theorem combine_read (W : Valuation τ sig (Elt F)) :
    after hostOps1 W (Proc.devRef .tc main_v70)
      = MoeGlue.gatherRows (W (Proc.devRef .tc main_v42)) (W (Proc.devRef .tc main_v0)) (W (Proc.devRef .tc main_v19))
          (W (Proc.devRef .tc main_v18)) (W (Proc.devRef .tc main_v3)) (W (Proc.devRef .tc main_arg2)) := by
  simp only [hostOps1]; after_results
  unfold MoeGlue.gatherRows MoeGlue.where2 MoeGlue.wrap MoeGlue.splat
  rfl

end Cert.KernelIdeal.MoeReads

end
-- ==== Proof.KernelMid.lean ====
/-
  The kernel's region, read as values: after the run the output array of the region holds, at every
  index (e, r, h), expert `e`'s down projection of the gated hidden values of row `r` of the buffer the
  region was launched on.

  The road: each of the body's two products read at an index is a sum over its one contracted axis; the
  shape casts, the two column slices and the pointwise operations read through at an index, so the one
  stored value at (0, r, h) is a double sum over the loaded blocks' entries. Grid point t stages block
  (t, 0, 0) of every array, so the blocks' entries are expert t's entries of the arrays and the stored
  block is block t of the experts' outputs. Every index (e, r, h) lies in point e's block, so the array
  ends holding the experts' outputs everywhere.
-/
import proofs.«173037_j78443282694942_1_alg».proof.Proof.Gen.KernelIdeal.Frame
import proofs.«173037_j78443282694942_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.MoeValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## The first product: rows of the buffer against the gate/up rows -/

theorem lhs_gu_0 (i : S513x1024.Idx) (q : dot_S513x1024_S1024x1024_S513x1024_1_1_0_0_n_n.contr.Idx) :
    (dot_S513x1024_S1024x1024_S513x1024_1_1_0_0_n_n.lhsIdx i q 0).val = (i 0).val := by
  unfold DotDims.lhsIdx
  rw [dif_neg (show ¬(0 : Fin S513x1024.rank) ∈ dot_S513x1024_S1024x1024_S513x1024_1_1_0_0_n_n.lhsBatch by decide),
    dif_pos (show (0 : Fin S513x1024.rank) ∈ dot_S513x1024_S1024x1024_S513x1024_1_1_0_0_n_n.lhsNonContracting by decide)]
  rfl
theorem lhs_gu_1 (i : S513x1024.Idx) (q : dot_S513x1024_S1024x1024_S513x1024_1_1_0_0_n_n.contr.Idx) :
    (dot_S513x1024_S1024x1024_S513x1024_1_1_0_0_n_n.lhsIdx i q 1).val = (q ⟨0, by decide⟩).val :=
  dot_S513x1024_S1024x1024_S513x1024_1_1_0_0_n_n.lhsIdx_val_of_single rfl i q
theorem rhs_gu_0 (i : S513x1024.Idx) (q : dot_S513x1024_S1024x1024_S513x1024_1_1_0_0_n_n.contr.Idx) :
    (dot_S513x1024_S1024x1024_S513x1024_1_1_0_0_n_n.rhsIdx i q 0).val = (i 1).val := by
  unfold DotDims.rhsIdx
  rw [dif_neg (show ¬(0 : Fin S1024x1024.rank) ∈ dot_S513x1024_S1024x1024_S513x1024_1_1_0_0_n_n.rhsBatch by decide),
    dif_pos (show (0 : Fin S1024x1024.rank) ∈ dot_S513x1024_S1024x1024_S513x1024_1_1_0_0_n_n.rhsNonContracting by decide)]
  rfl
theorem rhs_gu_1 (i : S513x1024.Idx) (q : dot_S513x1024_S1024x1024_S513x1024_1_1_0_0_n_n.contr.Idx) :
    (dot_S513x1024_S1024x1024_S513x1024_1_1_0_0_n_n.rhsIdx i q 1).val = (q ⟨0, by decide⟩).val :=
  dot_S513x1024_S1024x1024_S513x1024_1_1_0_0_n_n.rhsIdx_val_of_single rfl i q

/-- The first product at (r, o): the sum over the 1024 features of row r of the left operand times row o of the right. -/
theorem gu_apply (a : FVec Ideal S513x1024 .bf16) (b : FVec Ideal S1024x1024 .bf16) (r : Fin 513) (o : Fin 1024) :
    matmul dot_S513x1024_S1024x1024_S513x1024_1_1_0_0_n_n none a b (constant (F := Ideal) S513x1024 .f32 0x00000000#32) (ix2 r o)
      = ∑ k : Fin 1024, a (ix2 r k) * b (ix2 o k) := by
  simp only [matmul]
  rw [Ideal.matmul_constant_zero_apply, ← Equiv.sum_comp (contrEquiv1 dot_S513x1024_S1024x1024_S513x1024_1_1_0_0_n_n 1024 rfl rfl).symm]
  refine Finset.sum_congr rfl fun k _ => ?_
  have hk := contrEquiv1_symm_val dot_S513x1024_S1024x1024_S513x1024_1_1_0_0_n_n 1024 rfl rfl k
  have el : dot_S513x1024_S1024x1024_S513x1024_1_1_0_0_n_n.lhsIdx (ix2 r o) ((contrEquiv1 dot_S513x1024_S1024x1024_S513x1024_1_1_0_0_n_n 1024 rfl rfl).symm k) = ix2 r k :=
    funext fun a => Fin.ext (by
      match a with
      | ⟨0, _⟩ => exact lhs_gu_0 _ _
      | ⟨1, _⟩ => exact (lhs_gu_1 _ _).trans hk)
  have er : dot_S513x1024_S1024x1024_S513x1024_1_1_0_0_n_n.rhsIdx (ix2 r o) ((contrEquiv1 dot_S513x1024_S1024x1024_S513x1024_1_1_0_0_n_n 1024 rfl rfl).symm k) = ix2 o k :=
    funext fun a => Fin.ext (by
      match a with
      | ⟨0, _⟩ => exact rhs_gu_0 _ _
      | ⟨1, _⟩ => exact (rhs_gu_1 _ _).trans hk)
  rw [el, er]

/-! ## The second product: the gated hidden values against the down rows -/

theorem lhs_dn_0 (i : S513x1024.Idx) (q : dot_S513x512_S1024x512_S513x1024_1_1_0_0_n_n.contr.Idx) :
    (dot_S513x512_S1024x512_S513x1024_1_1_0_0_n_n.lhsIdx i q 0).val = (i 0).val := by
  unfold DotDims.lhsIdx
  rw [dif_neg (show ¬(0 : Fin S513x512.rank) ∈ dot_S513x512_S1024x512_S513x1024_1_1_0_0_n_n.lhsBatch by decide),
    dif_pos (show (0 : Fin S513x512.rank) ∈ dot_S513x512_S1024x512_S513x1024_1_1_0_0_n_n.lhsNonContracting by decide)]
  rfl
theorem lhs_dn_1 (i : S513x1024.Idx) (q : dot_S513x512_S1024x512_S513x1024_1_1_0_0_n_n.contr.Idx) :
    (dot_S513x512_S1024x512_S513x1024_1_1_0_0_n_n.lhsIdx i q 1).val = (q ⟨0, by decide⟩).val :=
  dot_S513x512_S1024x512_S513x1024_1_1_0_0_n_n.lhsIdx_val_of_single rfl i q
theorem rhs_dn_0 (i : S513x1024.Idx) (q : dot_S513x512_S1024x512_S513x1024_1_1_0_0_n_n.contr.Idx) :
    (dot_S513x512_S1024x512_S513x1024_1_1_0_0_n_n.rhsIdx i q 0).val = (i 1).val := by
  unfold DotDims.rhsIdx
  rw [dif_neg (show ¬(0 : Fin S1024x512.rank) ∈ dot_S513x512_S1024x512_S513x1024_1_1_0_0_n_n.rhsBatch by decide),
    dif_pos (show (0 : Fin S1024x512.rank) ∈ dot_S513x512_S1024x512_S513x1024_1_1_0_0_n_n.rhsNonContracting by decide)]
  rfl
theorem rhs_dn_1 (i : S513x1024.Idx) (q : dot_S513x512_S1024x512_S513x1024_1_1_0_0_n_n.contr.Idx) :
    (dot_S513x512_S1024x512_S513x1024_1_1_0_0_n_n.rhsIdx i q 1).val = (q ⟨0, by decide⟩).val :=
  dot_S513x512_S1024x512_S513x1024_1_1_0_0_n_n.rhsIdx_val_of_single rfl i q

/-- The second product at (r, h): the sum over the 512 hidden positions of row r of the left operand times row h of the right. -/
theorem dn_apply (a : FVec Ideal S513x512 .bf16) (b : FVec Ideal S1024x512 .bf16) (r : Fin 513) (h : Fin 1024) :
    matmul dot_S513x512_S1024x512_S513x1024_1_1_0_0_n_n none a b (constant (F := Ideal) S513x1024 .f32 0x00000000#32) (ix2 r h)
      = ∑ i : Fin 512, a (ix2 r i) * b (ix2 h i) := by
  simp only [matmul]
  rw [Ideal.matmul_constant_zero_apply, ← Equiv.sum_comp (contrEquiv1 dot_S513x512_S1024x512_S513x1024_1_1_0_0_n_n 512 rfl rfl).symm]
  refine Finset.sum_congr rfl fun k _ => ?_
  have hk := contrEquiv1_symm_val dot_S513x512_S1024x512_S513x1024_1_1_0_0_n_n 512 rfl rfl k
  have el : dot_S513x512_S1024x512_S513x1024_1_1_0_0_n_n.lhsIdx (ix2 r h) ((contrEquiv1 dot_S513x512_S1024x512_S513x1024_1_1_0_0_n_n 512 rfl rfl).symm k) = ix2 r k :=
    funext fun a => Fin.ext (by
      match a with
      | ⟨0, _⟩ => exact lhs_dn_0 _ _
      | ⟨1, _⟩ => exact (lhs_dn_1 _ _).trans hk)
  have er : dot_S513x512_S1024x512_S513x1024_1_1_0_0_n_n.rhsIdx (ix2 r h) ((contrEquiv1 dot_S513x512_S1024x512_S513x1024_1_1_0_0_n_n 512 rfl rfl).symm k) = ix2 h k :=
    funext fun a => Fin.ext (by
      match a with
      | ⟨0, _⟩ => exact rhs_dn_0 _ _
      | ⟨1, _⟩ => exact (rhs_dn_1 _ _).trans hk)
  rw [el, er]

/-! ## The layout operations at an index -/

/-- A [1, a, b] block viewed as [a, b]: its entry (p, q) is the block's entry (0, p, q). -/
theorem dropLead_apply {α : Type} {a b : Nat} (v : (⟨3, ![1, a, b]⟩ : Shape).Idx → α)
    (hc : (⟨3, ![1, a, b]⟩ : Shape).ShapeCasts ⟨2, ![a, b]⟩) (p : Fin a) (q : Fin b) :
    shapeCast ⟨2, ![a, b]⟩ v hc (ix2 p q) = v (ix3 (0 : Fin 1) p q) := by
  refine shapeCast_apply v hc (ix2 p q) (ix3 (0 : Fin 1) p q) ?_
  rw [Shape.rowMajor_val_three, Shape.rowMajor_val_two]
  show ((0 : Fin 1).val * a + p.val) * b + q.val = p.val * b + q.val
  simp

/-- An [a, b] value stored as a [1, a, b] block: the block's entry (0, p, q) is the value's entry (p, q). -/
theorem addLead_apply {α : Type} {a b : Nat} (v : (⟨2, ![a, b]⟩ : Shape).Idx → α)
    (hc : (⟨2, ![a, b]⟩ : Shape).ShapeCasts ⟨3, ![1, a, b]⟩) (p : Fin a) (q : Fin b) :
    shapeCast ⟨3, ![1, a, b]⟩ v hc (ix3 (0 : Fin 1) p q) = v (ix2 p q) := by
  refine shapeCast_apply v hc (ix3 (0 : Fin 1) p q) (ix2 p q) ?_
  rw [Shape.rowMajor_val_three, Shape.rowMajor_val_two]
  show p.val * b + q.val = ((0 : Fin 1).val * a + p.val) * b + q.val
  simp

/-- The first 512 columns of the projections: column i is gate row i. -/
theorem gate_apply {α : Type} (v : S513x1024.Idx → α) (r : Fin 513) (i : Fin 512) :
    extractStridedSlice S513x512 ![0, 0] v slices_S513x1024_o0_0_S513x512 (ix2 r i) = v (ix2 r (Cert.Moe.gateRow i)) := by
  refine extractStridedSlice_apply _ v _ (ix2 r i) (ix2 r (Cert.Moe.gateRow i)) fun a => ?_
  match a with
  | ⟨0, _⟩ => show r.val = 0 + r.val; omega
  | ⟨1, _⟩ => show i.val = 0 + i.val; omega

/-- The last 512 columns of the projections: column i is up row i. -/
theorem up_apply {α : Type} (v : S513x1024.Idx → α) (r : Fin 513) (i : Fin 512) :
    extractStridedSlice S513x512 ![0, 512] v slices_S513x1024_o0_512_S513x512 (ix2 r i) = v (ix2 r (Cert.Moe.upRow i)) := by
  refine extractStridedSlice_apply _ v _ (ix2 r i) (ix2 r (Cert.Moe.upRow i)) fun a => ?_
  match a with
  | ⟨0, _⟩ => show r.val = 0 + r.val; omega
  | ⟨1, _⟩ => show i.val + 512 = 512 + i.val; omega

/-- The logistic of a vector at an index is the logistic of the entry. -/
theorem logistic_apply {s : Shape} {φ : FTy} (a : FVec Ideal s φ) (i : s.Idx) : logistic a i = Ideal.logistic (a i) := rfl

/-! ## The body's one stored value at an index -/

/-- Row r of the buffer block against row o of the gate/up block. -/
def rowDot (x0 : Vec Ideal S1x513x1024 .f32) (x1 : Vec Ideal S1x1024x1024 .f32) (r : Fin 513) (o : Fin 1024) : EReal :=
  ∑ k : Fin 1024, x0 (ix3 (0 : Fin 1) r k) * x1 (ix3 (0 : Fin 1) o k)

/-- The stored value at (0, r, h), from the three loaded blocks: over the 512 hidden positions i, the gate
    projection of row r times its logistic times the up projection, times the down block's entry (0, h, i).
    The format changes are the identity on the extended reals, each product into the zero accumulator is the
    plain sum, the two slices pick the gate rows and the up rows of the 1024 projections. -/
theorem pay_apply (x0 : Vec Ideal S1x513x1024 .f32) (x1 : Vec Ideal S1x1024x1024 .f32) (x2 : Vec Ideal S1x1024x512 .f32)
    (r : Fin 513) (h : Fin 1024) :
    k0_pay1 x0 x1 x2 (ix3 (0 : Fin 1) r h)
      = ∑ i : Fin 512, rowDot x0 x1 r (Cert.Moe.gateRow i) * Ideal.logistic (rowDot x0 x1 r (Cert.Moe.gateRow i))
          * rowDot x0 x1 r (Cert.Moe.upRow i) * x2 (ix3 (0 : Fin 1) h i) := by
  unfold k0_pay1
  refine (addLead_apply _ _ r h).trans ?_
  refine (dn_apply _ _ r h).trans ?_
  refine Finset.sum_congr rfl fun i _ => ?_
  have hg : ∀ o : Fin 1024,
      matmul dot_S513x1024_S1024x1024_S513x1024_1_1_0_0_n_n none
          (truncf .bf16 (shapeCast S513x1024 x0 shapeCasts_S1x513x1024_S513x1024) bitsLt_bf16_f32)
          (truncf .bf16 (shapeCast S1024x1024 x1 shapeCasts_S1x1024x1024_S1024x1024) bitsLt_bf16_f32)
          (constant (F := Ideal) S513x1024 .f32 0x00000000#32) (ix2 r o)
        = rowDot x0 x1 r o := fun o => by
    refine (gu_apply _ _ r o).trans ?_
    unfold rowDot
    refine Finset.sum_congr rfl fun k _ => ?_
    rw [truncf_apply, truncf_apply, dropLead_apply, dropLead_apply]
  rw [truncf_apply, truncf_apply, mulf_apply, mulf_apply, logistic_apply, gate_apply, up_apply, hg, hg, dropLead_apply]

/-! ## The blocks: point t stages expert t's part of every array -/

/-- The printed index maps over the grid: every window's block index at point t is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The grid point as an expert. -/
def expertOf (t : Fin cfg0.N) : Fin 64 := ⟨t.val, by have h : cfg0.N = 64 := N_0; have := t.isLt; omega⟩

/-- Point t's block of the buffer array is expert t's rows. -/
theorem blk0_read (B : Cert.Moe.SBuf.Idx → EReal) (t : Fin cfg0.N) (r : Fin 513) (k : Fin 1024) :
    ((cfg0.win 0).blk t).view.read (Elt Ideal) B (ix3 (0 : Fin 1) r k) = B (ix3 (expertOf t) r k) := by
  obtain ⟨⟨e0, e1, e2⟩, -, -, -⟩ := idx_facts t
  rw [View.read_apply]
  show B _ = B _
  congr 1
  funext a
  apply Fin.ext
  match a with
  | ⟨0, _⟩ => show win0_0.index t (0 : Fin 3) * 1 + 1 * (0 : Fin 1).val = t.val; rw [e0]; simp
  | ⟨1, _⟩ => show win0_0.index t (1 : Fin 3) * 513 + 1 * r.val = r.val; rw [e1]; simp
  | ⟨2, _⟩ => show win0_0.index t (2 : Fin 3) * 1024 + 1 * k.val = k.val; rw [e2]; simp

/-- Point t's block of the gate/up matrices is expert t's matrix. -/
theorem blk1_read (W : Cert.Moe.SGateUp.Idx → EReal) (t : Fin cfg0.N) (o : Fin 1024) (k : Fin 1024) :
    ((cfg0.win 1).blk t).view.read (Elt Ideal) W (ix3 (0 : Fin 1) o k) = W (ix3 (expertOf t) o k) := by
  obtain ⟨-, ⟨e0, e1, e2⟩, -, -⟩ := idx_facts t
  rw [View.read_apply]
  show W _ = W _
  congr 1
  funext a
  apply Fin.ext
  match a with
  | ⟨0, _⟩ => show win0_1.index t (0 : Fin 3) * 1 + 1 * (0 : Fin 1).val = t.val; rw [e0]; simp
  | ⟨1, _⟩ => show win0_1.index t (1 : Fin 3) * 1024 + 1 * o.val = o.val; rw [e1]; simp
  | ⟨2, _⟩ => show win0_1.index t (2 : Fin 3) * 1024 + 1 * k.val = k.val; rw [e2]; simp

/-- Point t's block of the down matrices is expert t's matrix. -/
theorem blk2_read (D : Cert.Moe.SDown.Idx → EReal) (t : Fin cfg0.N) (h : Fin 1024) (i : Fin 512) :
    ((cfg0.win 2).blk t).view.read (Elt Ideal) D (ix3 (0 : Fin 1) h i) = D (ix3 (expertOf t) h i) := by
  obtain ⟨-, -, ⟨e0, e1, e2⟩, -⟩ := idx_facts t
  rw [View.read_apply]
  show D _ = D _
  congr 1
  funext a
  apply Fin.ext
  match a with
  | ⟨0, _⟩ => show win0_2.index t (0 : Fin 3) * 1 + 1 * (0 : Fin 1).val = t.val; rw [e0]; simp
  | ⟨1, _⟩ => show win0_2.index t (1 : Fin 3) * 1024 + 1 * h.val = h.val; rw [e1]; simp
  | ⟨2, _⟩ => show win0_2.index t (2 : Fin 3) * 512 + 1 * i.val = i.val; rw [e2]; simp

/-- Point t's block of the output array is expert t's rows. -/
theorem blk3_read (G : Cert.Moe.SBuf.Idx → EReal) (t : Fin cfg0.N) (r : Fin 513) (h : Fin 1024) :
    ((cfg0.win 3).blk t).view.read (Elt Ideal) G (ix3 (0 : Fin 1) r h) = G (ix3 (expertOf t) r h) := by
  obtain ⟨-, -, -, ⟨e0, e1, e2⟩⟩ := idx_facts t
  rw [View.read_apply]
  show G _ = G _
  congr 1
  funext a
  apply Fin.ext
  match a with
  | ⟨0, _⟩ => show win0_3.index t (0 : Fin 3) * 1 + 1 * (0 : Fin 1).val = t.val; rw [e0]; simp
  | ⟨1, _⟩ => show win0_3.index t (1 : Fin 3) * 513 + 1 * r.val = r.val; rw [e1]; simp
  | ⟨2, _⟩ => show win0_3.index t (2 : Fin 3) * 1024 + 1 * h.val = h.val; rw [e2]; simp

/-! ## One stored entry is one entry of the experts' outputs -/

/-- With the three blocks expert e's rows of arrays B, W, D, the stored entry (0, r, h) is the experts' output at (e, r, h). -/
theorem point_eq (B : Cert.Moe.SBuf.Idx → EReal) (W : Cert.Moe.SGateUp.Idx → EReal) (D : Cert.Moe.SDown.Idx → EReal) (e : Fin 64)
    (x0 : Vec Ideal S1x513x1024 .f32) (x1 : Vec Ideal S1x1024x1024 .f32) (x2 : Vec Ideal S1x1024x512 .f32)
    (h0 : ∀ (r : Fin 513) (k : Fin 1024), x0 (ix3 (0 : Fin 1) r k) = B (ix3 e r k))
    (h1 : ∀ (o : Fin 1024) (k : Fin 1024), x1 (ix3 (0 : Fin 1) o k) = W (ix3 e o k))
    (h2 : ∀ (h : Fin 1024) (i : Fin 512), x2 (ix3 (0 : Fin 1) h i) = D (ix3 e h i))
    (r : Fin 513) (h : Fin 1024) :
    k0_pay1 x0 x1 x2 (ix3 (0 : Fin 1) r h) = Cert.Moe.expertOut B W D (ix3 e r h) := by
  refine (pay_apply x0 x1 x2 r h).trans ?_
  show _ = ∑ i : Fin 512, Cert.Moe.glu B W e r i * D (ix3 e h i)
  have hP : ∀ o : Fin 1024, rowDot x0 x1 r o = Cert.Moe.proj B W e r o := fun o => by
    unfold rowDot Cert.Moe.proj
    exact Finset.sum_congr rfl fun k _ => by rw [h0, h1]
  refine Finset.sum_congr rfl fun i _ => ?_
  rw [hP, hP, h2]
  rfl

/-! ## From blocks to the array -/

theorem hz3 : (![0, 0, 0] : Fin 3 → Nat) = fun _ => 0 := funext fun a => by fin_cases a <;> rfl

/-- What the body leaves in the output block at point t, read off arrays B, W, D, is block t of the experts' outputs. -/
theorem block_eq (B : Cert.Moe.SBuf.Idx → EReal) (W : Cert.Moe.SGateUp.Idx → EReal) (D : Cert.Moe.SDown.Idx → EReal) (t : Fin cfg0.N) :
    (cfg0.win 3).cut (grid0.coords t)
        (out0_3 (((cfg0.win 0).blk t).view.read (Elt Ideal) B) (((cfg0.win 1).blk t).view.read (Elt Ideal) W)
          (((cfg0.win 2).blk t).view.read (Elt Ideal) D))
      = ((cfg0.win 3).blk t).view.read (Elt Ideal) (Cert.Moe.expertOut B W D) := by
  unfold out0_3
  rw [View.canon_unit_zero hz3]
  simp only [View.ld_unit_zero (S := S1x513x1024) hz3, View.ld_unit_zero (S := S1x1024x1024) hz3,
    View.ld_unit_zero (S := S1x1024x512) hz3]
  refine funext ?_
  show ∀ j : S1x513x1024.Idx,
    k0_pay1 (((cfg0.win 0).blk t).view.read (Elt Ideal) B) (((cfg0.win 1).blk t).view.read (Elt Ideal) W)
        (((cfg0.win 2).blk t).view.read (Elt Ideal) D) j
      = ((cfg0.win 3).blk t).view.read (Elt Ideal) (Cert.Moe.expertOut B W D) j
  intro j
  obtain ⟨a, r, h, rfl⟩ : ∃ (a : Fin 1) (r : Fin 513) (h : Fin 1024), j = ix3 a r h := ⟨j 0, j 1, j 2, eq_ix3 j⟩
  obtain rfl : a = 0 := Subsingleton.elim _ _
  refine Eq.trans ?_ (blk3_read (Cert.Moe.expertOut B W D) t r h).symm
  exact point_eq B W D (expertOf t) _ _ _ (blk0_read B t) (blk1_read W t) (blk2_read D t) r h

/-- What point t writes back is block t of the experts' outputs of the arrays as the region finds them. -/
theorem flushed_eq (c : Dev nD) (t : Fin cfg0.N) :
    (dats m 0 c).flushed 3 t = ((cfg0.win 3).blk t).view.read (Elt Ideal)
      (Cert.Moe.expertOut (V m c main_v41) (V m c main_arg3) (V m c main_arg4)) := by
  show (cfg0.win 3).cut (grid0.coords t) ((dats m 0 c).after 3 t) = _
  rw [after0_3]
  unfold iblk
  exact block_eq (V m c main_v41) (V m c main_arg3) (V m c main_arg4) t

/-- An index of the output array is in point t's block iff each coordinate is in the block's range on its axis. -/
theorem mem_blk3 (t : Fin cfg0.N) (i : S64x513x1024.Idx) :
    i ∈ ((cfg0.win 3).blk t).view.set ↔ ∀ a : Fin 3, win0_3.index t a * S1x513x1024.size a ≤ (i a).val
      ∧ (i a).val < win0_3.index t a * S1x513x1024.size a + S1x513x1024.size a := by
  show i ∈ ((View.whole main_v42).slice (win0_3.rect t)).set ↔ _
  rw [View.set_slice_whole, Rect.mem_set_unit]
  exact Iff.rfl

/-- Every index (e, r, h) of the output array is in point e's block. -/
theorem cover (i : S64x513x1024.Idx) :
    ∃ t : Fin cfg0.N, (cfg0.win 3).flush t = true ∧ i ∈ ((cfg0.win 3).blk t).view.set := by
  have hN : cfg0.N = 64 := N_0
  have h0 : (i 0).val < 64 := (i 0).isLt
  have h1 : (i 1).val < 513 := (i 1).isLt
  have h2 : (i 2).val < 1024 := (i 2).isLt
  obtain ⟨t, ht⟩ : ∃ t : Fin cfg0.N, t.val = (i 0).val := ⟨⟨(i 0).val, by omega⟩, rfl⟩
  obtain ⟨-, -, -, e0, e1, e2⟩ := idx_facts t
  refine ⟨t, flush0_3 t, ?_⟩
  rw [mem_blk3]
  intro a
  match a with
  | ⟨0, _⟩ =>
    show win0_3.index t (0 : Fin 3) * 1 ≤ (i 0).val ∧ (i 0).val < win0_3.index t (0 : Fin 3) * 1 + 1
    rw [e0]; omega
  | ⟨1, _⟩ =>
    show win0_3.index t (1 : Fin 3) * 513 ≤ (i 1).val ∧ (i 1).val < win0_3.index t (1 : Fin 3) * 513 + 513
    rw [e1]; omega
  | ⟨2, _⟩ =>
    show win0_3.index t (2 : Fin 3) * 1024 ≤ (i 2).val ∧ (i 2).val < win0_3.index t (2 : Fin 3) * 1024 + 1024
    rw [e2]; omega

/-- The region's output array after the run is `Cert.Moe.expertOut` of the buffer array, the gate/up
    matrices and the down matrices as the region finds them. -/
theorem final (c : Dev nD) :
    (dats m 0 c).arrAt 3 cfg0.N
      = Cert.Moe.expertOut (V m c main_v41) (V m c main_arg3) (V m c main_arg4) :=
  (dats m 0 c).arrAt_eq_of_cover 3 (Cert.Moe.expertOut (V m c main_v41) (V m c main_arg3) (V m c main_arg4))
    (fun t _ => flushed_eq m c t) cover

end Cert.KernelIdeal.MoeValue

end
-- ==== Proof.KernelRun.lean ====
/-
  The kernel program's run, read as values. The region is launched on the per-expert buffers the dispatch
  left and on the two weight arrays, and leaves `Cert.Moe.expertOut` of them in its output array; the lines
  after the region combine that array with the pairs' experts, slots, validity and tokens the dispatch left
  and with the routing weights. So the program's result is `MoeGlue.result` of its five arguments, and
  the arguments end as they were launched.
-/
import proofs.«173037_j78443282694942_1_alg».proof.Proof.KernelReads
import proofs.«173037_j78443282694942_1_alg».proof.Proof.KernelMid

set_option maxRecDepth 8192

noncomputable section

namespace Cert.KernelIdeal.MoeRun

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The lines after the region leave the whole computation's value in the result buffer. -/
theorem tail_eq (c : Dev nD) :
    Pipeline.afterTail₀ cfgs (dats m) 0 (V0 m) [hostOps1] c main_v70
      = MoeGlue.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  unfold Pipeline.afterTail₀
  show after hostOps1 _ (Proc.devRef .tc main_v70) = _
  rw [MoeReads.combine_read]
  rw [Pipeline.withArrays_of_ne _ c (V0 m c) _ main_v0 (by exact (by decide : ∀ w, Pipeline.arrRef spec0 w ≠ main_v0)),
    Pipeline.withArrays_of_ne _ c (V0 m c) _ main_v19 (by exact (by decide : ∀ w, Pipeline.arrRef spec0 w ≠ main_v19)),
    Pipeline.withArrays_of_ne _ c (V0 m c) _ main_v18 (by exact (by decide : ∀ w, Pipeline.arrRef spec0 w ≠ main_v18)),
    Pipeline.withArrays_of_ne _ c (V0 m c) _ main_v3 (by exact (by decide : ∀ w, Pipeline.arrRef spec0 w ≠ main_v3)),
    Pipeline.withArrays_of_ne _ c (V0 m c) _ main_arg2 (by exact (by decide : ∀ w, Pipeline.arrRef spec0 w ≠ main_arg2))]
  rw [show Pipeline.withArrays (cfgs 0).spec c (V0 m c) (fun w => (dats m 0 c).arrAt w (cfgs 0).N) (Proc.devRef .tc main_v42)
      = (dats m 0 c).arrAt 3 cfg0.N from Pipeline.withArrays_arr spec0 launch0.win.arr_inj c _ _ 3]
  rw [MoeValue.final m c]
  rw [show V0 m c (Proc.devRef .tc main_v0) = _ from MoeReads.dispatch_v0 (fun b => m (c, b)),
    show V0 m c (Proc.devRef .tc main_v19) = _ from MoeReads.dispatch_v19 (fun b => m (c, b)),
    show V0 m c (Proc.devRef .tc main_v18) = _ from MoeReads.dispatch_v18 (fun b => m (c, b)),
    show V0 m c (Proc.devRef .tc main_v3) = _ from MoeReads.dispatch_v3 (fun b => m (c, b)),
    show V0 m c (Proc.devRef .tc main_arg2) = _ from MoeReads.dispatch_arg2 (fun b => m (c, b)),
    show V m c main_v41 = _ from MoeReads.dispatch_v41 (fun b => m (c, b)),
    V_main_arg3 m c, V_main_arg4 m c]
  rfl

/-- From any memory with zero counters every weakly fair execution of the kernel program terminates, its result buffer
    at `MoeGlue.result` of the launch contents of its arguments, the arguments unchanged. -/
theorem run :
    θ_run (defs (F := Ideal)) (onTc (τ := τ) (main (F := Ideal))) ⟨m, fun _ => 0, ρ⟩ fun r => ∀ c : Dev nD,
      r.2.mem ((c.tc : Thread nD τ).loc main_v70)
        = MoeGlue.result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v70 (Pipeline.mem_restRefs_of main_v70 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c)))⟩)
    (run_main m ρ)

end Cert.KernelIdeal.MoeRun

end
-- ==== Proof.RefOps.lean ====
import proofs.«173037_j78443282694942_1_alg».proof.Proof.Gen.ReferenceIdeal
import Idealize.ShloMosaic.Lib.StableHlo.Run

noncomputable section

namespace Cert.ReferenceIdeal.MoeRun

open Cert.ReferenceIdeal Cert.ReferenceIdeal.Gen Idealize.ShloMosaic Idealize.ShloMosaic.TcCoe Idealize.SL.Sem Idealize.ShloMosaic.StableHlo

variable {F : FTy → Type} [FloatOps F]

abbrev opsD0 : List (HloOp τ sig (Elt F)) :=
  [ StableHlo.reshape main_arg1 main_v0 rfl shapeCasts_S4096x4_S16384,
    StableHlo.nullary main_v1 (iotaInDim S4096 32 0),
    StableHlo.unary main_v1 main_v2 (broadcastInDim S4096x4 ![0] bcast_S4096_S4096x4_0 : (⟨S4096, .i32⟩ : BufTy).Contents (Elt F) → (⟨S4096x4, .i32⟩ : BufTy).Contents (Elt F)),
    StableHlo.reshape main_v2 main_v3 rfl shapeCasts_S4096x4_S16384,
    StableHlo.unary main_v0 main_v4 (broadcastInDim S16384x1 ![0] bcast_S16384_S16384x1_0 : (⟨S16384, .i32⟩ : BufTy).Contents (Elt F) → (⟨S16384x1, .i32⟩ : BufTy).Contents (Elt F)),
    StableHlo.nullary main_v5 (iotaInDim S64 32 0),
    StableHlo.unary main_v5 main_v6 (broadcastInDim S1x64 ![1] bcast_S64_S1x64_1 : (⟨S64, .i32⟩ : BufTy).Contents (Elt F) → (⟨S1x64, .i32⟩ : BufTy).Contents (Elt F)),
    StableHlo.unary main_v4 main_v7 (broadcastInDim S16384x64 ![0, 1] bcast_S16384x1_S16384x64_0_1 : (⟨S16384x1, .i32⟩ : BufTy).Contents (Elt F) → (⟨S16384x64, .i32⟩ : BufTy).Contents (Elt F)),
    StableHlo.unary main_v6 main_v8 (broadcastInDim S16384x64 ![0, 1] bcast_S1x64_S16384x64_0_1 : (⟨S1x64, .i32⟩ : BufTy).Contents (Elt F) → (⟨S16384x64, .i32⟩ : BufTy).Contents (Elt F)),
    StableHlo.binary main_v7 main_v8 main_v9 (cmpi .eq : (⟨S16384x64, .i32⟩ : BufTy).Contents (Elt F) → (⟨S16384x64, .i32⟩ : BufTy).Contents (Elt F) → (⟨S16384x64, .i1⟩ : BufTy).Contents (Elt F)),
    StableHlo.unary main_v9 main_v10 ((extui 32 · natLt_1_32) : (⟨S16384x64, .i1⟩ : BufTy).Contents (Elt F) → (⟨S16384x64, .i32⟩ : BufTy).Contents (Elt F)) ]

set_option maxRecDepth 8192 in
theorem opsD0_sub : (opsD0 : List (HloOp τ sig (Elt F))).Forall fun op => op.bufs ⊆ tcRefs τ sig :=
  ⟨reshape_bufs_sub .., nullary_bufs_sub .., unary_bufs_sub .., reshape_bufs_sub .., unary_bufs_sub .., nullary_bufs_sub .., unary_bufs_sub .., unary_bufs_sub .., unary_bufs_sub .., binary_bufs_sub .., unary_bufs_sub ..⟩

abbrev opsD1 : List (HloOp τ sig (Elt F)) :=
  [ StableHlo.TRef.nullary main_call0.call0.c (constantI S_ 32 0#32),
    StableHlo.TRef.unary main_call0.call0.c main_call0.call0.v0 (broadcastInDim S_ ![] bcast_S_S_),
    StableHlo.TRef.binary (.of main_v10) main_call0.call0.v0 main_call0.call0.v1 (fun x v => Host.reduceWindow IntOp.addi ![16384, 1] ![1, 1] ![16383, 0] ![0, 0] x v reduceWindows_S16384x64_S16384x64_w16384s1p16383_0_w1s1p0_0 h_S_) ]

set_option maxRecDepth 8192 in
theorem opsD1_sub : (opsD1 : List (HloOp τ sig (Elt F))).Forall fun op => op.bufs ⊆ tcRefs τ sig :=
  ⟨nullary_bufs_sub .., unary_bufs_sub .., binary_bufs_sub ..⟩

abbrev opsD2 : List (HloOp τ sig (Elt F)) :=
  [ StableHlo.unary main_v0 main_v12 (broadcastInDim S16384x1 ![0] bcast_S16384_S16384x1_0 : (⟨S16384, .i32⟩ : BufTy).Contents (Elt F) → (⟨S16384x1, .i32⟩ : BufTy).Contents (Elt F)) ]

set_option maxRecDepth 8192 in
theorem opsD2_sub : (opsD2 : List (HloOp τ sig (Elt F))).Forall fun op => op.bufs ⊆ tcRefs τ sig :=
  unary_bufs_sub ..

abbrev opsD3 : List (HloOp τ sig (Elt F)) :=
  [ StableHlo.TRef.nullary main_call1.c (constantI S_ 32 0#32),
    StableHlo.TRef.unary main_call1.c main_call1.v0 (broadcastInDim S16384x1 ![] bcast_S_S16384x1),
    StableHlo.TRef.binary (.of main_v12) main_call1.v0 main_call1.v1 (cmpi .slt),
    StableHlo.TRef.nullary main_call1.c_0 (constantI S_ 32 64#32),
    StableHlo.TRef.unary main_call1.c_0 main_call1.v2 (broadcastInDim S16384x1 ![] bcast_S_S16384x1),
    StableHlo.TRef.binary (.of main_v12) main_call1.v2 main_call1.v3 addi,
    StableHlo.TRef.ternary main_call1.v1 main_call1.v3 (.of main_v12) main_call1.v4 select,
    StableHlo.TRef.reshape main_call1.v4 main_call1.v5 rfl shapeCasts_S16384x1_S16384x1x1,
    StableHlo.TRef.nullary main_call1.c_1 (constantI S1 32 63#32),
    StableHlo.TRef.nullary main_call1.c_2 (constantI S_ 32 0#32),
    StableHlo.TRef.unary main_call1.c_2 main_call1.v6 (broadcastInDim S16384x1x1 ![] bcast_S_S16384x1x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S16384x1x1 ![0, 1, 2] bcast_S1x1x1_S16384x1x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S16384x1x1_S16384x1_d2 h_S_),
    StableHlo.TRef.binary (.of main_v11) main_call1.v5 main_call1.v13 (fun x i => Host.gather gather_S16384x64_S16384x1x1_S16384x1_n_1_0_0_1_2_11 x i),
    StableHlo.TRef.nullary main_call1.c_4 (constantI S_ 32 2147483648#32),
    StableHlo.TRef.unary main_call1.c_4 main_call1.v14 (broadcastInDim S16384x1 ![] bcast_S_S16384x1),
    StableHlo.TRef.ternary main_call1.v12 main_call1.v13 main_call1.v14 main_call1.v15 select ]

set_option maxRecDepth 8192 in
theorem opsD3_sub : (opsD3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

abbrev opsD4 : List (HloOp τ sig (Elt F)) :=
  [ StableHlo.reshape main_v13 main_v14 rfl shapeCasts_S16384x1_S16384,
    StableHlo.nullary main_c (constantI S_ 32 1#32),
    StableHlo.unary main_c main_v15 (broadcastInDim S16384 ![] bcast_S_S16384 : (⟨S_, .i32⟩ : BufTy).Contents (Elt F) → (⟨S16384, .i32⟩ : BufTy).Contents (Elt F)),
    StableHlo.binary main_v14 main_v15 main_v16 (subi : (⟨S16384, .i32⟩ : BufTy).Contents (Elt F) → (⟨S16384, .i32⟩ : BufTy).Contents (Elt F) → (⟨S16384, .i32⟩ : BufTy).Contents (Elt F)),
    StableHlo.nullary main_c_0 (constantI S_ 32 512#32),
    StableHlo.unary main_c_0 main_v17 (broadcastInDim S16384 ![] bcast_S_S16384 : (⟨S_, .i32⟩ : BufTy).Contents (Elt F) → (⟨S16384, .i32⟩ : BufTy).Contents (Elt F)),
    StableHlo.binary main_v16 main_v17 main_v18 (cmpi .slt : (⟨S16384, .i32⟩ : BufTy).Contents (Elt F) → (⟨S16384, .i32⟩ : BufTy).Contents (Elt F) → (⟨S16384, .i1⟩ : BufTy).Contents (Elt F)),
    StableHlo.nullary main_c_1 (constantI S_ 32 512#32) ]

set_option maxRecDepth 8192 in
theorem opsD4_sub : (opsD4 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., nullary_bufs_sub ..⟩

abbrev opsD5 : List (HloOp τ sig (Elt F)) :=
  [ StableHlo.TRef.unary (.of main_c_1) main_call2.v0 id,
    StableHlo.TRef.unary main_call2.v0 main_call2.v1 (broadcastInDim S16384 ![] bcast_S_S16384),
    StableHlo.TRef.ternary (.of main_v18) (.of main_v16) main_call2.v1 main_call2.v2 select ]

set_option maxRecDepth 8192 in
theorem opsD5_sub : (opsD5 : List (HloOp τ sig (Elt F))).Forall fun op => op.bufs ⊆ tcRefs τ sig :=
  ⟨unary_bufs_sub .., unary_bufs_sub .., ternary_bufs_sub ..⟩

abbrev opsD6 : List (HloOp τ sig (Elt F)) :=
  [ StableHlo.nullary main_c_2 (constantI S_ 32 0#32),
    StableHlo.unary main_c_2 main_v20 (broadcastInDim S16384 ![] bcast_S_S16384 : (⟨S_, .i32⟩ : BufTy).Contents (Elt F) → (⟨S16384, .i32⟩ : BufTy).Contents (Elt F)),
    StableHlo.binary main_v3 main_v20 main_v21 (cmpi .slt : (⟨S16384, .i32⟩ : BufTy).Contents (Elt F) → (⟨S16384, .i32⟩ : BufTy).Contents (Elt F) → (⟨S16384, .i1⟩ : BufTy).Contents (Elt F)),
    StableHlo.nullary main_c_3 (constantI S_ 32 4096#32),
    StableHlo.unary main_c_3 main_v22 (broadcastInDim S16384 ![] bcast_S_S16384 : (⟨S_, .i32⟩ : BufTy).Contents (Elt F) → (⟨S16384, .i32⟩ : BufTy).Contents (Elt F)),
    StableHlo.binary main_v3 main_v22 main_v23 (addi : (⟨S16384, .i32⟩ : BufTy).Contents (Elt F) → (⟨S16384, .i32⟩ : BufTy).Contents (Elt F) → (⟨S16384, .i32⟩ : BufTy).Contents (Elt F)),
    StableHlo.ternary main_v21 main_v23 main_v3 main_v24 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v24 main_v25 (broadcastInDim S16384x1 ![0] bcast_S16384_S16384x1_0 : (⟨S16384, .i32⟩ : BufTy).Contents (Elt F) → (⟨S16384x1, .i32⟩ : BufTy).Contents (Elt F)),
    StableHlo.binary main_arg0 main_v25 main_v26 ((fun x i => Host.gather gather_S4096x1024_S16384x1_S16384x1024_1_0_n_n_0_1_11024 x i) : (⟨S4096x1024, .f32⟩ : BufTy).Contents (Elt F) → (⟨S16384x1, .i32⟩ : BufTy).Contents (Elt F) → (⟨S16384x1024, .f32⟩ : BufTy).Contents (Elt F)),
    StableHlo.nullary main_cst (constant S_ .f32 0x00000000#32),
    StableHlo.unary main_cst main_v27 (broadcastInDim S64x513x1024 ![] bcast_S_S64x513x1024 : (⟨S_, .f32⟩ : BufTy).Contents (Elt F) → (⟨S64x513x1024, .f32⟩ : BufTy).Contents (Elt F)),
    StableHlo.nullary main_c_4 (constantI S_ 32 0#32),
    StableHlo.unary main_c_4 main_v28 (broadcastInDim S16384 ![] bcast_S_S16384 : (⟨S_, .i32⟩ : BufTy).Contents (Elt F) → (⟨S16384, .i32⟩ : BufTy).Contents (Elt F)),
    StableHlo.binary main_v0 main_v28 main_v29 (cmpi .slt : (⟨S16384, .i32⟩ : BufTy).Contents (Elt F) → (⟨S16384, .i32⟩ : BufTy).Contents (Elt F) → (⟨S16384, .i1⟩ : BufTy).Contents (Elt F)),
    StableHlo.nullary main_c_5 (constantI S_ 32 64#32),
    StableHlo.unary main_c_5 main_v30 (broadcastInDim S16384 ![] bcast_S_S16384 : (⟨S_, .i32⟩ : BufTy).Contents (Elt F) → (⟨S16384, .i32⟩ : BufTy).Contents (Elt F)),
    StableHlo.binary main_v0 main_v30 main_v31 (addi : (⟨S16384, .i32⟩ : BufTy).Contents (Elt F) → (⟨S16384, .i32⟩ : BufTy).Contents (Elt F) → (⟨S16384, .i32⟩ : BufTy).Contents (Elt F)),
    StableHlo.ternary main_v29 main_v31 main_v0 main_v32 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_6 (constantI S_ 32 0#32),
    StableHlo.unary main_c_6 main_v33 (broadcastInDim S16384 ![] bcast_S_S16384 : (⟨S_, .i32⟩ : BufTy).Contents (Elt F) → (⟨S16384, .i32⟩ : BufTy).Contents (Elt F)),
    StableHlo.binary main_v19 main_v33 main_v34 (cmpi .slt : (⟨S16384, .i32⟩ : BufTy).Contents (Elt F) → (⟨S16384, .i32⟩ : BufTy).Contents (Elt F) → (⟨S16384, .i1⟩ : BufTy).Contents (Elt F)),
    StableHlo.nullary main_c_7 (constantI S_ 32 513#32),
    StableHlo.unary main_c_7 main_v35 (broadcastInDim S16384 ![] bcast_S_S16384 : (⟨S_, .i32⟩ : BufTy).Contents (Elt F) → (⟨S16384, .i32⟩ : BufTy).Contents (Elt F)),
    StableHlo.binary main_v19 main_v35 main_v36 (addi : (⟨S16384, .i32⟩ : BufTy).Contents (Elt F) → (⟨S16384, .i32⟩ : BufTy).Contents (Elt F) → (⟨S16384, .i32⟩ : BufTy).Contents (Elt F)),
    StableHlo.ternary main_v34 main_v36 main_v19 main_v37 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v32 main_v38 (broadcastInDim S16384x1 ![0] bcast_S16384_S16384x1_0 : (⟨S16384, .i32⟩ : BufTy).Contents (Elt F) → (⟨S16384x1, .i32⟩ : BufTy).Contents (Elt F)),
    StableHlo.unary main_v37 main_v39 (broadcastInDim S16384x1 ![0] bcast_S16384_S16384x1_0 : (⟨S16384, .i32⟩ : BufTy).Contents (Elt F) → (⟨S16384x1, .i32⟩ : BufTy).Contents (Elt F)),
    StableHlo.binary main_v38 main_v39 main_v40 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    StableHlo.ternary main_v27 main_v40 main_v26 main_v41 ((fun x i u => Host.scatter scatter_S64x513x1024_S16384x2_S16384x1024_1_01_01_1 (fun _ b => b) x i u) : (⟨S64x513x1024, .f32⟩ : BufTy).Contents (Elt F) → (⟨S16384x2, .i32⟩ : BufTy).Contents (Elt F) → (⟨S16384x1024, .f32⟩ : BufTy).Contents (Elt F) → (⟨S64x513x1024, .f32⟩ : BufTy).Contents (Elt F)) ]

set_option maxRecDepth 8192 in
theorem opsD6_sub : (opsD6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub ..⟩

abbrev opsExperts : List (HloOp τ sig (Elt F)) :=
  [ StableHlo.binary main_v41 main_arg3 main_v42 ((fun l r => Host.dotGeneral dot_S64x513x1024_S64x1024x1024_S64x513x1024_2_2_1_1_0_0 none l r) : (⟨S64x513x1024, .f32⟩ : BufTy).Contents (Elt F) → (⟨S64x1024x1024, .f32⟩ : BufTy).Contents (Elt F) → (⟨S64x513x1024, .f32⟩ : BufTy).Contents (Elt F)),
    StableHlo.unary main_v42 main_v43 ((extractStridedSlice S64x513x512 ![0, 0, 0] · slices_S64x513x1024_S64x513x512_0_0_0) : (⟨S64x513x1024, .f32⟩ : BufTy).Contents (Elt F) → (⟨S64x513x512, .f32⟩ : BufTy).Contents (Elt F)),
    StableHlo.unary main_v42 main_v44 ((extractStridedSlice S64x513x512 ![0, 0, 512] · slices_S64x513x1024_S64x513x512_0_0_512) : (⟨S64x513x1024, .f32⟩ : BufTy).Contents (Elt F) → (⟨S64x513x512, .f32⟩ : BufTy).Contents (Elt F)),
    StableHlo.TRef.unary (.of main_v43) main_call3.v0 Host.negf,
    StableHlo.TRef.unary main_call3.v0 main_call3.v1 Host.exp,
    StableHlo.TRef.nullary main_call3.cst (constant S_ .f32 0x3F800000#32),
    StableHlo.TRef.unary main_call3.cst main_call3.v2 (broadcastInDim S64x513x512 ![] bcast_S_S64x513x512),
    StableHlo.TRef.binary main_call3.v2 main_call3.v1 main_call3.v3 addf,
    StableHlo.TRef.nullary main_call3.cst_0 (constant S_ .f32 0x3F800000#32),
    StableHlo.TRef.unary main_call3.cst_0 main_call3.v4 (broadcastInDim S64x513x512 ![] bcast_S_S64x513x512),
    StableHlo.TRef.binary main_call3.v4 main_call3.v3 main_call3.v5 Host.divf,
    StableHlo.TRef.binary (.of main_v43) main_call3.v5 main_call3.v6 mulf,
    StableHlo.binary main_v45 main_v44 main_v46 (mulf : (⟨S64x513x512, .f32⟩ : BufTy).Contents (Elt F) → (⟨S64x513x512, .f32⟩ : BufTy).Contents (Elt F) → (⟨S64x513x512, .f32⟩ : BufTy).Contents (Elt F)),
    StableHlo.binary main_v46 main_arg4 main_v47 ((fun l r => Host.dotGeneral dot_S64x513x512_S64x1024x512_S64x513x1024_2_2_1_1_0_0 none l r) : (⟨S64x513x512, .f32⟩ : BufTy).Contents (Elt F) → (⟨S64x1024x512, .f32⟩ : BufTy).Contents (Elt F) → (⟨S64x513x1024, .f32⟩ : BufTy).Contents (Elt F)) ]

set_option maxRecDepth 8192 in
theorem opsExperts_sub : (opsExperts : List (HloOp τ sig (Elt F))).Forall fun op => op.bufs ⊆ tcRefs τ sig :=
  ⟨binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub ..⟩

abbrev opsCombine : List (HloOp τ sig (Elt F)) :=
  [ StableHlo.reshape main_arg2 main_v48 rfl shapeCasts_S4096x4_S16384,
    StableHlo.unary main_v18 main_v49 (uitofp .f32 : (⟨S16384, .i1⟩ : BufTy).Contents (Elt F) → (⟨S16384, .f32⟩ : BufTy).Contents (Elt F)),
    StableHlo.binary main_v48 main_v49 main_v50 (mulf : (⟨S16384, .f32⟩ : BufTy).Contents (Elt F) → (⟨S16384, .f32⟩ : BufTy).Contents (Elt F) → (⟨S16384, .f32⟩ : BufTy).Contents (Elt F)),
    StableHlo.nullary main_c_8 (constantI S_ 32 0#32),
    StableHlo.unary main_c_8 main_v51 (broadcastInDim S16384 ![] bcast_S_S16384 : (⟨S_, .i32⟩ : BufTy).Contents (Elt F) → (⟨S16384, .i32⟩ : BufTy).Contents (Elt F)),
    StableHlo.binary main_v0 main_v51 main_v52 (cmpi .slt : (⟨S16384, .i32⟩ : BufTy).Contents (Elt F) → (⟨S16384, .i32⟩ : BufTy).Contents (Elt F) → (⟨S16384, .i1⟩ : BufTy).Contents (Elt F)),
    StableHlo.nullary main_c_9 (constantI S_ 32 64#32),
    StableHlo.unary main_c_9 main_v53 (broadcastInDim S16384 ![] bcast_S_S16384 : (⟨S_, .i32⟩ : BufTy).Contents (Elt F) → (⟨S16384, .i32⟩ : BufTy).Contents (Elt F)),
    StableHlo.binary main_v0 main_v53 main_v54 (addi : (⟨S16384, .i32⟩ : BufTy).Contents (Elt F) → (⟨S16384, .i32⟩ : BufTy).Contents (Elt F) → (⟨S16384, .i32⟩ : BufTy).Contents (Elt F)),
    StableHlo.ternary main_v52 main_v54 main_v0 main_v55 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_10 (constantI S_ 32 0#32),
    StableHlo.unary main_c_10 main_v56 (broadcastInDim S16384 ![] bcast_S_S16384 : (⟨S_, .i32⟩ : BufTy).Contents (Elt F) → (⟨S16384, .i32⟩ : BufTy).Contents (Elt F)),
    StableHlo.binary main_v19 main_v56 main_v57 (cmpi .slt : (⟨S16384, .i32⟩ : BufTy).Contents (Elt F) → (⟨S16384, .i32⟩ : BufTy).Contents (Elt F) → (⟨S16384, .i1⟩ : BufTy).Contents (Elt F)),
    StableHlo.nullary main_c_11 (constantI S_ 32 513#32),
    StableHlo.unary main_c_11 main_v58 (broadcastInDim S16384 ![] bcast_S_S16384 : (⟨S_, .i32⟩ : BufTy).Contents (Elt F) → (⟨S16384, .i32⟩ : BufTy).Contents (Elt F)),
    StableHlo.binary main_v19 main_v58 main_v59 (addi : (⟨S16384, .i32⟩ : BufTy).Contents (Elt F) → (⟨S16384, .i32⟩ : BufTy).Contents (Elt F) → (⟨S16384, .i32⟩ : BufTy).Contents (Elt F)),
    StableHlo.ternary main_v57 main_v59 main_v19 main_v60 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v55 main_v61 (broadcastInDim S16384x1 ![0] bcast_S16384_S16384x1_0 : (⟨S16384, .i32⟩ : BufTy).Contents (Elt F) → (⟨S16384x1, .i32⟩ : BufTy).Contents (Elt F)),
    StableHlo.unary main_v60 main_v62 (broadcastInDim S16384x1 ![0] bcast_S16384_S16384x1_0 : (⟨S16384, .i32⟩ : BufTy).Contents (Elt F) → (⟨S16384x1, .i32⟩ : BufTy).Contents (Elt F)),
    StableHlo.binary main_v61 main_v62 main_v63 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    StableHlo.binary main_v47 main_v63 main_v64 ((fun x i => Host.gather gather_S64x513x1024_S16384x2_S16384x1024_1_01_n_n_01_1_111024 x i) : (⟨S64x513x1024, .f32⟩ : BufTy).Contents (Elt F) → (⟨S16384x2, .i32⟩ : BufTy).Contents (Elt F) → (⟨S16384x1024, .f32⟩ : BufTy).Contents (Elt F)),
    StableHlo.unary main_v50 main_v65 (broadcastInDim S16384x1 ![0] bcast_S16384_S16384x1_0 : (⟨S16384, .f32⟩ : BufTy).Contents (Elt F) → (⟨S16384x1, .f32⟩ : BufTy).Contents (Elt F)),
    StableHlo.unary main_v65 main_v66 (broadcastInDim S16384x1024 ![0, 1] bcast_S16384x1_S16384x1024_0_1 : (⟨S16384x1, .f32⟩ : BufTy).Contents (Elt F) → (⟨S16384x1024, .f32⟩ : BufTy).Contents (Elt F)),
    StableHlo.binary main_v64 main_v66 main_v67 (mulf : (⟨S16384x1024, .f32⟩ : BufTy).Contents (Elt F) → (⟨S16384x1024, .f32⟩ : BufTy).Contents (Elt F) → (⟨S16384x1024, .f32⟩ : BufTy).Contents (Elt F)),
    StableHlo.nullary main_cst_12 (constant S_ .f32 0x00000000#32),
    StableHlo.unary main_cst_12 main_v68 (broadcastInDim S4096x1024 ![] bcast_S_S4096x1024 : (⟨S_, .f32⟩ : BufTy).Contents (Elt F) → (⟨S4096x1024, .f32⟩ : BufTy).Contents (Elt F)),
    StableHlo.nullary main_c_13 (constantI S_ 32 0#32),
    StableHlo.unary main_c_13 main_v69 (broadcastInDim S16384 ![] bcast_S_S16384 : (⟨S_, .i32⟩ : BufTy).Contents (Elt F) → (⟨S16384, .i32⟩ : BufTy).Contents (Elt F)),
    StableHlo.binary main_v3 main_v69 main_v70 (cmpi .slt : (⟨S16384, .i32⟩ : BufTy).Contents (Elt F) → (⟨S16384, .i32⟩ : BufTy).Contents (Elt F) → (⟨S16384, .i1⟩ : BufTy).Contents (Elt F)),
    StableHlo.nullary main_c_14 (constantI S_ 32 4096#32),
    StableHlo.unary main_c_14 main_v71 (broadcastInDim S16384 ![] bcast_S_S16384 : (⟨S_, .i32⟩ : BufTy).Contents (Elt F) → (⟨S16384, .i32⟩ : BufTy).Contents (Elt F)),
    StableHlo.binary main_v3 main_v71 main_v72 (addi : (⟨S16384, .i32⟩ : BufTy).Contents (Elt F) → (⟨S16384, .i32⟩ : BufTy).Contents (Elt F) → (⟨S16384, .i32⟩ : BufTy).Contents (Elt F)),
    StableHlo.ternary main_v70 main_v72 main_v3 main_v73 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v73 main_v74 (broadcastInDim S16384x1 ![0] bcast_S16384_S16384x1_0 : (⟨S16384, .i32⟩ : BufTy).Contents (Elt F) → (⟨S16384x1, .i32⟩ : BufTy).Contents (Elt F)),
    StableHlo.ternary main_v68 main_v74 main_v67 main_v75 ((fun x i u => Host.scatterAdd scatter_S4096x1024_S16384x1_S16384x1024_1_0_0_1 x i u) : (⟨S4096x1024, .f32⟩ : BufTy).Contents (Elt F) → (⟨S16384x1, .i32⟩ : BufTy).Contents (Elt F) → (⟨S16384x1024, .f32⟩ : BufTy).Contents (Elt F) → (⟨S4096x1024, .f32⟩ : BufTy).Contents (Elt F)) ]

set_option maxRecDepth 8192 in
theorem opsCombine_sub : (opsCombine : List (HloOp τ sig (Elt F))).Forall fun op => op.bufs ⊆ tcRefs τ sig :=
  ⟨reshape_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩

end Cert.ReferenceIdeal.MoeRun

end
-- ==== Proof.RefRun.lean ====
/-
  The reference program's run: its @main is the straight line of its host operations (the functions it
  calls unfolded at their calls), so every weakly fair execution terminates with each buffer at the fold
  of the operations' results over the launch contents. The line is cut where the kernel program's is: the
  dispatch in its seven stages, the experts' stage, and the combine.
-/
import proofs.«173037_j78443282694942_1_alg».proof.Proof.RefOps

noncomputable section

namespace Cert.ReferenceIdeal.MoeRun

open Cert.ReferenceIdeal Cert.ReferenceIdeal.Gen Idealize.ShloMosaic Idealize.ShloMosaic.TcCoe Idealize.SL.Sem Idealize.ShloMosaic.StableHlo

variable {F : FTy → Type} [FloatOps F]

/-- The dispatch's operations, stage after stage. -/
abbrev opsDispatch : List (HloOp τ sig (Elt F)) := opsD0 ++ (opsD1 ++ (opsD2 ++ (opsD3 ++ (opsD4 ++ (opsD5 ++ opsD6)))))

/-- @main's operations, in order. -/
abbrev ops : List (HloOp τ sig (Elt F)) := opsDispatch ++ (opsExperts ++ opsCombine)

set_option maxRecDepth 16384 in
set_option maxHeartbeats 4000000 in
/-- @main is that line: its windows and the called functions' bodies unfold to it. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  List.forall_iff_forall_mem.mpr fun op h => by
    simp only [ops, opsDispatch, List.mem_append] at h
    rcases h with (h | h | h | h | h | h | h) | h | h
    exacts [List.forall_iff_forall_mem.mp opsD0_sub op h,
      List.forall_iff_forall_mem.mp opsD1_sub op h,
      List.forall_iff_forall_mem.mp opsD2_sub op h,
      List.forall_iff_forall_mem.mp opsD3_sub op h,
      List.forall_iff_forall_mem.mp opsD4_sub op h,
      List.forall_iff_forall_mem.mp opsD5_sub op h,
      List.forall_iff_forall_mem.mp opsD6_sub op h,
      List.forall_iff_forall_mem.mp opsExperts_sub op h,
      List.forall_iff_forall_mem.mp opsCombine_sub op h]

theorem opsD0_fresh : (opsD0 : List (HloOp τ sig (Elt F))).Forall fun op => op.fresh = ∅ := by
  simp only [List.Forall]; repeat' constructor
theorem opsD1_fresh : (opsD1 : List (HloOp τ sig (Elt F))).Forall fun op => op.fresh = ∅ := by
  simp only [List.Forall]; repeat' constructor
theorem opsD2_fresh : (opsD2 : List (HloOp τ sig (Elt F))).Forall fun op => op.fresh = ∅ := by
  simp only [List.Forall]; repeat' constructor
theorem opsD3_fresh : (opsD3 : List (HloOp τ sig (Elt F))).Forall fun op => op.fresh = ∅ := by
  simp only [List.Forall]; repeat' constructor
theorem opsD4_fresh : (opsD4 : List (HloOp τ sig (Elt F))).Forall fun op => op.fresh = ∅ := by
  simp only [List.Forall]; repeat' constructor
theorem opsD5_fresh : (opsD5 : List (HloOp τ sig (Elt F))).Forall fun op => op.fresh = ∅ := by
  simp only [List.Forall]; repeat' constructor
theorem opsD6_fresh : (opsD6 : List (HloOp τ sig (Elt F))).Forall fun op => op.fresh = ∅ := by
  simp only [List.Forall]; repeat' constructor
theorem opsExperts_fresh : (opsExperts : List (HloOp τ sig (Elt F))).Forall fun op => op.fresh = ∅ := by
  simp only [List.Forall]; repeat' constructor
theorem opsCombine_fresh : (opsCombine : List (HloOp τ sig (Elt F))).Forall fun op => op.fresh = ∅ := by
  simp only [List.Forall]; repeat' constructor

/-- No operation allocates. -/
theorem ops_fresh : ∀ op ∈ (ops : List (HloOp τ sig (Elt F))), op.fresh = ∅ := by
  intro op h
  simp only [ops, opsDispatch, List.mem_append] at h
  rcases h with (h | h | h | h | h | h | h) | h | h
  exacts [List.forall_iff_forall_mem.mp opsD0_fresh op h,
    List.forall_iff_forall_mem.mp opsD1_fresh op h,
    List.forall_iff_forall_mem.mp opsD2_fresh op h,
    List.forall_iff_forall_mem.mp opsD3_fresh op h,
    List.forall_iff_forall_mem.mp opsD4_fresh op h,
    List.forall_iff_forall_mem.mp opsD5_fresh op h,
    List.forall_iff_forall_mem.mp opsD6_fresh op h,
    List.forall_iff_forall_mem.mp opsExperts_fresh op h,
    List.forall_iff_forall_mem.mp opsCombine_fresh op h]

/-- From any memory with zero counters every weakly fair execution of @main terminates, each buffer at the fold of
    the operations' results over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.MoeRun

end
-- ==== Proof.RefReads.lean ====
import proofs.«173037_j78443282694942_1_alg».proof.Proof.RefRun
import proofs.«173037_j78443282694942_1_alg».proof.Proof.Glue
import Idealize.ShloMosaic.Lib.StableHlo.Run
import Idealize.ShloMosaic.Lib.Pipeline.Frame

set_option maxRecDepth 8192

noncomputable section

namespace Cert.ReferenceIdeal.MoeReads

open Idealize.ShloMosaic Idealize.ShloMosaic.TcCoe Idealize.SL.Sem Idealize.ShloMosaic.StableHlo
open Cert.ReferenceIdeal Cert.ReferenceIdeal.Gen Cert.ReferenceIdeal.MoeRun

variable {F : FTy → Type} [FloatOps F]

/-- One stage read at one buffer: the stage's operations unfolded, each operation's result at its own buffer its
    function's value and at any other buffer what was there; a called function's typed references transport along
    an equation between a type and itself, which is the identity. -/
local macro "read_stage" ops:ident : tactic =>
  `(tactic| (simp only [$ops:ident]; after_results; try simp only [TRef.toBuf, TRef.ofBuf, cast_eq]; try rfl))

/-- A buffer no operation of a stage writes keeps its contents: each operation writes its one result buffer, another. -/
local macro "keep_stage" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Stage 0: the flattened routing table, the tokens, the one-hot rows -/

theorem s0_v0 (X : Valuation τ sig (Elt F)) :
    after opsD0 X (Proc.devRef .tc main_v0) = Cert.KernelIdeal.MoeGlue.flatE (X (Proc.devRef .tc main_arg1)) := by read_stage opsD0
theorem s0_v3 (X : Valuation τ sig (Elt F)) :
    after opsD0 X (Proc.devRef .tc main_v3) = Cert.KernelIdeal.MoeGlue.tokIdx (F := F) := by read_stage opsD0
theorem s0_v10 (X : Valuation τ sig (Elt F)) :
    after opsD0 X (Proc.devRef .tc main_v10) = Cert.KernelIdeal.MoeGlue.onehot (Cert.KernelIdeal.MoeGlue.flatE (X (Proc.devRef .tc main_arg1))) := by read_stage opsD0
theorem s0_arg0 (X : Valuation τ sig (Elt F)) :
    after opsD0 X (Proc.devRef .tc main_arg0) = X (Proc.devRef .tc main_arg0) := by keep_stage opsD0
theorem s0_arg2 (X : Valuation τ sig (Elt F)) :
    after opsD0 X (Proc.devRef .tc main_arg2) = X (Proc.devRef .tc main_arg2) := by keep_stage opsD0

/-! ## Stage 1: the running column sums -/

theorem s1_v11 (X : Valuation τ sig (Elt F)) :
    after opsD1 X (Proc.devRef .tc main_v11) = Cert.KernelIdeal.MoeGlue.cumsum (X (Proc.devRef .tc main_v10)) := by read_stage opsD1
theorem s1_v0 (X : Valuation τ sig (Elt F)) :
    after opsD1 X (Proc.devRef .tc main_v0) = X (Proc.devRef .tc main_v0) := by keep_stage opsD1
theorem s1_v3 (X : Valuation τ sig (Elt F)) :
    after opsD1 X (Proc.devRef .tc main_v3) = X (Proc.devRef .tc main_v3) := by keep_stage opsD1
theorem s1_arg0 (X : Valuation τ sig (Elt F)) :
    after opsD1 X (Proc.devRef .tc main_arg0) = X (Proc.devRef .tc main_arg0) := by keep_stage opsD1
theorem s1_arg2 (X : Valuation τ sig (Elt F)) :
    after opsD1 X (Proc.devRef .tc main_arg2) = X (Proc.devRef .tc main_arg2) := by keep_stage opsD1

/-! ## Stage 2: the pairs' experts as a column -/

theorem s2_v12 (X : Valuation τ sig (Elt F)) :
    after opsD2 X (Proc.devRef .tc main_v12) = broadcastInDim S16384x1 ![0] bcast_S16384_S16384x1_0 (X (Proc.devRef .tc main_v0)) := by
  read_stage opsD2
theorem s2_v11 (X : Valuation τ sig (Elt F)) :
    after opsD2 X (Proc.devRef .tc main_v11) = X (Proc.devRef .tc main_v11) := by keep_stage opsD2
theorem s2_v0 (X : Valuation τ sig (Elt F)) :
    after opsD2 X (Proc.devRef .tc main_v0) = X (Proc.devRef .tc main_v0) := by keep_stage opsD2
theorem s2_v3 (X : Valuation τ sig (Elt F)) :
    after opsD2 X (Proc.devRef .tc main_v3) = X (Proc.devRef .tc main_v3) := by keep_stage opsD2
theorem s2_arg0 (X : Valuation τ sig (Elt F)) :
    after opsD2 X (Proc.devRef .tc main_arg0) = X (Proc.devRef .tc main_arg0) := by keep_stage opsD2
theorem s2_arg2 (X : Valuation τ sig (Elt F)) :
    after opsD2 X (Proc.devRef .tc main_arg2) = X (Proc.devRef .tc main_arg2) := by keep_stage opsD2

/-! ## Stage 3: each pair's own column of the running sums -/

set_option maxHeartbeats 2000000 in
theorem s3_v13 (X : Valuation τ sig (Elt F)) :
    after opsD3 X (Proc.devRef .tc main_v13) = Cert.KernelIdeal.MoeGlue.takeAlong (X (Proc.devRef .tc main_v11)) (X (Proc.devRef .tc main_v12)) := by
  read_stage opsD3
theorem s3_v0 (X : Valuation τ sig (Elt F)) :
    after opsD3 X (Proc.devRef .tc main_v0) = X (Proc.devRef .tc main_v0) := by keep_stage opsD3
theorem s3_v3 (X : Valuation τ sig (Elt F)) :
    after opsD3 X (Proc.devRef .tc main_v3) = X (Proc.devRef .tc main_v3) := by keep_stage opsD3
theorem s3_arg0 (X : Valuation τ sig (Elt F)) :
    after opsD3 X (Proc.devRef .tc main_arg0) = X (Proc.devRef .tc main_arg0) := by keep_stage opsD3
theorem s3_arg2 (X : Valuation τ sig (Elt F)) :
    after opsD3 X (Proc.devRef .tc main_arg2) = X (Proc.devRef .tc main_arg2) := by keep_stage opsD3

/-! ## Stage 4: the position, the validity, the capacity constant -/

theorem s4_v16 (X : Valuation τ sig (Elt F)) :
    after opsD4 X (Proc.devRef .tc main_v16)
      = subi (fun i => shapeCast S16384 (X (Proc.devRef .tc main_v13)) shapeCasts_S16384x1_S16384 i) (Cert.KernelIdeal.MoeGlue.splat (F := F) 1#32) := by
  read_stage opsD4
theorem s4_v18 (X : Valuation τ sig (Elt F)) :
    after opsD4 X (Proc.devRef .tc main_v18)
      = cmpi .slt (subi (fun i => shapeCast S16384 (X (Proc.devRef .tc main_v13)) shapeCasts_S16384x1_S16384 i) (Cert.KernelIdeal.MoeGlue.splat (F := F) 1#32))
          (Cert.KernelIdeal.MoeGlue.splat (F := F) 512#32) := by
  read_stage opsD4
theorem s4_c1 (X : Valuation τ sig (Elt F)) :
    after opsD4 X (Proc.devRef .tc main_c_1) = constantI S_ 32 512#32 := by read_stage opsD4
theorem s4_v0 (X : Valuation τ sig (Elt F)) :
    after opsD4 X (Proc.devRef .tc main_v0) = X (Proc.devRef .tc main_v0) := by keep_stage opsD4
theorem s4_v3 (X : Valuation τ sig (Elt F)) :
    after opsD4 X (Proc.devRef .tc main_v3) = X (Proc.devRef .tc main_v3) := by keep_stage opsD4
theorem s4_arg0 (X : Valuation τ sig (Elt F)) :
    after opsD4 X (Proc.devRef .tc main_arg0) = X (Proc.devRef .tc main_arg0) := by keep_stage opsD4
theorem s4_arg2 (X : Valuation τ sig (Elt F)) :
    after opsD4 X (Proc.devRef .tc main_arg2) = X (Proc.devRef .tc main_arg2) := by keep_stage opsD4

/-! ## Stage 5: the slot -/

theorem s5_v19 (X : Valuation τ sig (Elt F)) :
    after opsD5 X (Proc.devRef .tc main_v19)
      = select (X (Proc.devRef .tc main_v18)) (X (Proc.devRef .tc main_v16)) (broadcastInDim S16384 ![] bcast_S_S16384 (id (X (Proc.devRef .tc main_c_1)))) := by
  read_stage opsD5
theorem s5_v18 (X : Valuation τ sig (Elt F)) :
    after opsD5 X (Proc.devRef .tc main_v18) = X (Proc.devRef .tc main_v18) := by keep_stage opsD5
theorem s5_v0 (X : Valuation τ sig (Elt F)) :
    after opsD5 X (Proc.devRef .tc main_v0) = X (Proc.devRef .tc main_v0) := by keep_stage opsD5
theorem s5_v3 (X : Valuation τ sig (Elt F)) :
    after opsD5 X (Proc.devRef .tc main_v3) = X (Proc.devRef .tc main_v3) := by keep_stage opsD5
theorem s5_arg0 (X : Valuation τ sig (Elt F)) :
    after opsD5 X (Proc.devRef .tc main_arg0) = X (Proc.devRef .tc main_arg0) := by keep_stage opsD5
theorem s5_arg2 (X : Valuation τ sig (Elt F)) :
    after opsD5 X (Proc.devRef .tc main_arg2) = X (Proc.devRef .tc main_arg2) := by keep_stage opsD5

/-! ## Stage 6: the per-expert buffers -/

set_option maxHeartbeats 4000000 in
theorem s6_v41 (X : Valuation τ sig (Elt F)) :
    after opsD6 X (Proc.devRef .tc main_v41)
      = Cert.KernelIdeal.MoeGlue.scatterRows (X (Proc.devRef .tc main_arg0)) (X (Proc.devRef .tc main_v0)) (X (Proc.devRef .tc main_v19)) (X (Proc.devRef .tc main_v3)) := by
  simp only [opsD6]; after_results
  unfold Cert.KernelIdeal.MoeGlue.scatterRows Cert.KernelIdeal.MoeGlue.where2 Cert.KernelIdeal.MoeGlue.wrap Cert.KernelIdeal.MoeGlue.splat
  rfl
theorem s6_v0 (X : Valuation τ sig (Elt F)) :
    after opsD6 X (Proc.devRef .tc main_v0) = X (Proc.devRef .tc main_v0) := by keep_stage opsD6
theorem s6_v3 (X : Valuation τ sig (Elt F)) :
    after opsD6 X (Proc.devRef .tc main_v3) = X (Proc.devRef .tc main_v3) := by keep_stage opsD6
theorem s6_v18 (X : Valuation τ sig (Elt F)) :
    after opsD6 X (Proc.devRef .tc main_v18) = X (Proc.devRef .tc main_v18) := by keep_stage opsD6
theorem s6_v19 (X : Valuation τ sig (Elt F)) :
    after opsD6 X (Proc.devRef .tc main_v19) = X (Proc.devRef .tc main_v19) := by keep_stage opsD6
theorem s6_arg2 (X : Valuation τ sig (Elt F)) :
    after opsD6 X (Proc.devRef .tc main_arg2) = X (Proc.devRef .tc main_arg2) := by keep_stage opsD6

/-! ## The stages composed -/

/-- They run stage after stage. -/
theorem dispatch_split (L : Valuation τ sig (Elt F)) :
    after opsDispatch L
      = after opsD6 (after opsD5 (after opsD4 (after opsD3 (after opsD2 (after opsD1 (after opsD0 L)))))) := by
  simp only [opsDispatch, List.flatten_cons, List.flatten_nil, List.append_nil, StableHlo.after_append]

/-- The pairs' experts end in `main_v0`, -/
theorem dispatch_v0 (L : Valuation τ sig (Elt F)) :
    after opsDispatch L (Proc.devRef .tc main_v0) = Cert.KernelIdeal.MoeGlue.flatE (L (Proc.devRef .tc main_arg1)) := by
  rw [dispatch_split, s6_v0, s5_v0, s4_v0, s3_v0, s2_v0, s1_v0, s0_v0]

/-- their tokens in `main_v3`, -/
theorem dispatch_v3 (L : Valuation τ sig (Elt F)) :
    after opsDispatch L (Proc.devRef .tc main_v3) = Cert.KernelIdeal.MoeGlue.tokIdx (F := F) := by
  rw [dispatch_split, s6_v3, s5_v3, s4_v3, s3_v3, s2_v3, s1_v3, s0_v3]

/-- each pair's own column of the running sums, after stage 3, is the library's term of the routing table, -/
theorem stage3_v13 (L : Valuation τ sig (Elt F)) :
    after opsD3 (after opsD2 (after opsD1 (after opsD0 L))) (Proc.devRef .tc main_v13)
      = Cert.KernelIdeal.MoeGlue.takeAlong (Cert.KernelIdeal.MoeGlue.cumsum (Cert.KernelIdeal.MoeGlue.onehot (Cert.KernelIdeal.MoeGlue.flatE (L (Proc.devRef .tc main_arg1)))))
          (broadcastInDim S16384x1 ![0] bcast_S16384_S16384x1_0 (Cert.KernelIdeal.MoeGlue.flatE (L (Proc.devRef .tc main_arg1)))) := by
  rw [s3_v13, s2_v11, s2_v12, s1_v11, s1_v0, s0_v10, s0_v0]

/-- their validity in `main_v18`, -/
theorem dispatch_v18 (L : Valuation τ sig (Elt F)) :
    after opsDispatch L (Proc.devRef .tc main_v18) = Cert.KernelIdeal.MoeGlue.valid (L (Proc.devRef .tc main_arg1)) := by
  rw [dispatch_split, s6_v18, s5_v18, s4_v18, stage3_v13]
  rfl

/-- their slots in `main_v19`, -/
theorem dispatch_v19 (L : Valuation τ sig (Elt F)) :
    after opsDispatch L (Proc.devRef .tc main_v19) = Cert.KernelIdeal.MoeGlue.slot (L (Proc.devRef .tc main_arg1)) := by
  rw [dispatch_split, s6_v19, s5_v19, s4_v18, s4_v16, s4_c1, stage3_v13]
  rfl

/-- the per-expert buffers in `main_v41`, -/
theorem dispatch_v41 (L : Valuation τ sig (Elt F)) :
    after opsDispatch L (Proc.devRef .tc main_v41)
      = Cert.KernelIdeal.MoeGlue.buf (L (Proc.devRef .tc main_arg0)) (L (Proc.devRef .tc main_arg1)) := by
  rw [dispatch_split, s6_v41, s5_v19, s4_v18, s4_v16, s4_c1, stage3_v13,
    s5_arg0, s4_arg0, s3_arg0, s2_arg0, s1_arg0, s0_arg0,
    s5_v0, s4_v0, s3_v0, s2_v0, s1_v0, s0_v0,
    s5_v3, s4_v3, s3_v3, s2_v3, s1_v3, s0_v3]
  rfl

/-- and the routing weights where they were. -/
theorem dispatch_arg2 (L : Valuation τ sig (Elt F)) :
    after opsDispatch L (Proc.devRef .tc main_arg2) = L (Proc.devRef .tc main_arg2) := by
  rw [dispatch_split, s6_arg2, s5_arg2, s4_arg2, s3_arg2, s2_arg2, s1_arg2, s0_arg2]

set_option maxHeartbeats 4000000 in
/-- The lines after the region combine the region's output array with what the dispatch left. -/
theorem combine_read (W : Valuation τ sig (Elt F)) :
    after opsCombine W (Proc.devRef .tc main_v75)
      = Cert.KernelIdeal.MoeGlue.gatherRows (W (Proc.devRef .tc main_v47)) (W (Proc.devRef .tc main_v0)) (W (Proc.devRef .tc main_v19))
          (W (Proc.devRef .tc main_v18)) (W (Proc.devRef .tc main_v3)) (W (Proc.devRef .tc main_arg2)) := by
  simp only [opsCombine]; after_results
  unfold Cert.KernelIdeal.MoeGlue.gatherRows Cert.KernelIdeal.MoeGlue.where2 Cert.KernelIdeal.MoeGlue.wrap Cert.KernelIdeal.MoeGlue.splat
  rfl

end Cert.ReferenceIdeal.MoeReads

end
-- ==== Proof.RefMid.lean ====
/-
  The reference's per-expert stage, read as values: the batched gate/up product, its two halves, the
  gate's silu written out as `x · (1 / (1 + exp (-x)))`, the product with the up half, and the batched
  down product are, index by index, `Cert.Moe.expertOut`.
-/
import proofs.«173037_j78443282694942_1_alg».proof.Proof.Gen.ReferenceIdeal
import proofs.«173037_j78443282694942_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.MoeRef

open Idealize.ShloMosaic Idealize.ShloMosaic.TcCoe Idealize.ShloMosaic.ValueIdx Idealize.SL.Sem
open Cert.ReferenceIdeal Cert.ReferenceIdeal.Gen

variable {F : FTy → Type} [FloatOps F]

/-- The host operations between the dispatch's scatter and the combine's gather, composed: the buffer
    array `B`, the gate/up matrices `W`, the down matrices `D`. -/
def mid (B : FVec F S64x513x1024 .f32) (W : FVec F S64x1024x1024 .f32) (D : FVec F S64x1024x512 .f32) :
    FVec F S64x513x1024 .f32 :=
  Host.dotGeneral dot_S64x513x512_S64x1024x512_S64x513x1024_2_2_1_1_0_0 none
    (mulf
      (mulf
        (extractStridedSlice S64x513x512 ![0, 0, 0] (Host.dotGeneral dot_S64x513x1024_S64x1024x1024_S64x513x1024_2_2_1_1_0_0 none B W) slices_S64x513x1024_S64x513x512_0_0_0)
        (Host.divf (broadcastInDim S64x513x512 ![] bcast_S_S64x513x512 (constant S_ .f32 0x3F800000#32))
          (addf (broadcastInDim S64x513x512 ![] bcast_S_S64x513x512 (constant S_ .f32 0x3F800000#32))
            (Host.exp (Host.negf
              (extractStridedSlice S64x513x512 ![0, 0, 0] (Host.dotGeneral dot_S64x513x1024_S64x1024x1024_S64x513x1024_2_2_1_1_0_0 none B W) slices_S64x513x1024_S64x513x512_0_0_0))))))
      (extractStridedSlice S64x513x512 ![0, 0, 512] (Host.dotGeneral dot_S64x513x1024_S64x1024x1024_S64x513x1024_2_2_1_1_0_0 none B W) slices_S64x513x1024_S64x513x512_0_0_512))
    D

/-- A batched product contracting the last axis of both operands, `[G, m, k] × [G, n, k] → [G, m, n]`, read at an
    index: the sum over the contracted coordinate of the products of the two rows' entries. -/
theorem dotGeneral_bmk_bnk_apply {G m n k : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have hc := contrEquiv1_symm_val
    (⟨[2], [2], [1], [1], [0], [0], w⟩ : DotDims ⟨3, ![G, m, k]⟩ ⟨3, ![G, n, k]⟩ ⟨3, ![G, m, n]⟩) k rfl rfl c
  have hl : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact hc
  have hr : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact hc
  rw [hl, hr]

/-- The word `0x3F800000` is the float 1. -/
theorem ofBits_one_f32 : Ideal.ofBits .f32 0x3F800000#32 = 1 := IdealRules.sign_bit.ideal_onePat .f32

/-- The gate/up product at (e, r, o) is row `o` of expert `e`'s gate/up matrix applied to row `r` of its buffer. -/
theorem gu_apply (B : FVec Ideal S64x513x1024 .f32) (W : FVec Ideal S64x1024x1024 .f32)
    (e : Fin 64) (r : Fin 513) (o : Fin 1024) :
    Host.dotGeneral (F := Ideal) dot_S64x513x1024_S64x1024x1024_S64x513x1024_2_2_1_1_0_0 none B W (ix3 e r o)
      = Cert.Moe.proj B W e r o :=
  dotGeneral_bmk_bnk_apply _ none B W e r o

/-- The first half of the last axis: position `i` reads the source at the gate row `i`. -/
theorem gate_slice_apply (X : FVec Ideal S64x513x1024 .f32) (e : Fin 64) (r : Fin 513) (i : Fin 512) :
    extractStridedSlice S64x513x512 ![0, 0, 0] X slices_S64x513x1024_S64x513x512_0_0_0 (ix3 e r i)
      = X (ix3 e r (Cert.Moe.gateRow i)) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm)

/-- The second half of the last axis: position `i` reads the source at the up row `i + 512`. -/
theorem up_slice_apply (X : FVec Ideal S64x513x1024 .f32) (e : Fin 64) (r : Fin 513) (i : Fin 512) :
    extractStridedSlice S64x513x512 ![0, 0, 512] X slices_S64x513x1024_S64x513x512_0_0_512 (ix3 e r i)
      = X (ix3 e r (Cert.Moe.upRow i)) :=
  extractStridedSlice_apply _ _ _ _ _ (fun ax => by
    match ax with
    | ⟨0, _⟩ => exact (Nat.zero_add _).symm
    | ⟨1, _⟩ => exact (Nat.zero_add _).symm
    | ⟨2, _⟩ => exact Nat.add_comm _ _)

/-- The splat of the float 1 reads 1 everywhere. -/
theorem one_apply (j : S64x513x512.Idx) :
    broadcastInDim S64x513x512 ![] bcast_S_S64x513x512 (constant (F := Ideal) S_ .f32 0x3F800000#32) j = 1 :=
  ofBits_one_f32

/-- `x · (1 / (1 + exp (-x)))` is `x · logistic x`. -/
theorem silu_point (x : EReal) : x * Ideal.div 1 (1 + Ideal.exp (-x)) = x * Ideal.logistic x := rfl

/-- The gated hidden value the reference forms, at (e, r, i): the gate half's silu, written out, times the up half. -/
theorem hidden_apply (B : FVec Ideal S64x513x1024 .f32) (W : FVec Ideal S64x1024x1024 .f32)
    (e : Fin 64) (r : Fin 513) (i : Fin 512) :
    (mulf
      (mulf
        (extractStridedSlice S64x513x512 ![0, 0, 0] (Host.dotGeneral (F := Ideal) dot_S64x513x1024_S64x1024x1024_S64x513x1024_2_2_1_1_0_0 none B W) slices_S64x513x1024_S64x513x512_0_0_0)
        (Host.divf (broadcastInDim S64x513x512 ![] bcast_S_S64x513x512 (constant S_ .f32 0x3F800000#32))
          (addf (broadcastInDim S64x513x512 ![] bcast_S_S64x513x512 (constant S_ .f32 0x3F800000#32))
            (Host.exp (Host.negf
              (extractStridedSlice S64x513x512 ![0, 0, 0] (Host.dotGeneral (F := Ideal) dot_S64x513x1024_S64x1024x1024_S64x513x1024_2_2_1_1_0_0 none B W) slices_S64x513x1024_S64x513x512_0_0_0))))))
      (extractStridedSlice S64x513x512 ![0, 0, 512] (Host.dotGeneral (F := Ideal) dot_S64x513x1024_S64x1024x1024_S64x513x1024_2_2_1_1_0_0 none B W) slices_S64x513x1024_S64x513x512_0_0_512)
      : FVec Ideal S64x513x512 .f32) (ix3 e r i)
      = Cert.Moe.glu B W e r i := by
  rw [mulf_apply, mulf_apply]
  show _ * Ideal.div (broadcastInDim S64x513x512 ![] bcast_S_S64x513x512 (constant (F := Ideal) S_ .f32 0x3F800000#32) (ix3 e r i))
      (broadcastInDim S64x513x512 ![] bcast_S_S64x513x512 (constant (F := Ideal) S_ .f32 0x3F800000#32) (ix3 e r i)
        + Ideal.exp (-(extractStridedSlice S64x513x512 ![0, 0, 0] (Host.dotGeneral (F := Ideal) dot_S64x513x1024_S64x1024x1024_S64x513x1024_2_2_1_1_0_0 none B W) slices_S64x513x1024_S64x513x512_0_0_0 (ix3 e r i)))) * _ = _
  rw [one_apply, gate_slice_apply, up_slice_apply, gu_apply, gu_apply, silu_point]
  rfl

/-- At the extended reals that composition is `Cert.Moe.expertOut`. -/
theorem mid_eq (B : FVec Ideal S64x513x1024 .f32) (W : FVec Ideal S64x1024x1024 .f32) (D : FVec Ideal S64x1024x512 .f32) :
    mid (F := Ideal) B W D = Cert.Moe.expertOut B W D := by
  funext j
  obtain ⟨e, r, h, rfl⟩ : ∃ (e : Fin 64) (r : Fin 513) (h : Fin 1024), j = ix3 e r h := ⟨j 0, j 1, j 2, eq_ix3 j⟩
  unfold mid
  refine (dotGeneral_bmk_bnk_apply _ none _ D e r h).trans ?_
  show _ = ∑ i : Fin 512, Cert.Moe.glu B W e r i * D (ix3 e h i)
  refine Finset.sum_congr rfl fun i _ => ?_
  rw [hidden_apply]

end Cert.ReferenceIdeal.MoeRef

end
-- ==== Proof.RefValue.lean ====
/-
  The reference program's run, read as values. The dispatch leaves the pairs' experts, slots, validity and
  tokens and the per-expert buffers as the kernel program's host lines do (the same operations); the experts'
  stage leaves `Cert.Moe.expertOut` of the buffers and the two weight arrays; the combine is the kernel
  program's. So the result is the same function `MoeGlue.result` of the five arguments, which end as launched.
-/
import proofs.«173037_j78443282694942_1_alg».proof.Proof.RefReads
import proofs.«173037_j78443282694942_1_alg».proof.Proof.RefMid

set_option maxRecDepth 8192

noncomputable section

namespace Cert.ReferenceIdeal.MoeRun

open Cert.ReferenceIdeal Cert.ReferenceIdeal.Gen Idealize.ShloMosaic Idealize.ShloMosaic.TcCoe Idealize.SL.Sem Idealize.ShloMosaic.StableHlo

section AnyInstance

variable {F : FTy → Type} [FloatOps F]

/-- A buffer none of the listed operations writes keeps its contents: each operation writes its one result buffer,
    another. -/
local macro "keep_ops" "[" ops:Lean.Parser.Tactic.simpLemma,* "]" : tactic =>
  `(tactic| exact StableHlo.after_of_forall_not_mem _ _ (List.forall_iff_forall_mem.mp (by
      simp only [$ops,*, List.cons_append, List.nil_append, List.Forall, StableHlo.nullary_writes, StableHlo.unary_writes,
        StableHlo.binary_writes, StableHlo.ternary_writes, StableHlo.quaternary_writes, StableHlo.reshape_writes,
        StableHlo.binaryIndexed_writes, Finset.mem_singleton]
      repeat' apply And.intro
      all_goals exact StableHlo.devRef_ne_of_ne (by decide))))

/-! ## The experts' stage -/

set_option maxHeartbeats 2000000 in
/-- It leaves the composed term `MoeRef.mid` of the buffers and the weight arrays in `main_v47`, -/
theorem experts_v47 (U : Valuation τ sig (Elt F)) :
    after opsExperts U (Proc.devRef .tc main_v47)
      = MoeRef.mid (U (Proc.devRef .tc main_v41)) (U (Proc.devRef .tc main_arg3)) (U (Proc.devRef .tc main_arg4)) := by
  simp only [opsExperts]; after_results
  simp only [TRef.toBuf, TRef.ofBuf, cast_eq]
  rfl

/-- and what the dispatch left where it was. -/
theorem experts_v0 (U : Valuation τ sig (Elt F)) :
    after opsExperts U (Proc.devRef .tc main_v0) = U (Proc.devRef .tc main_v0) := by keep_ops [opsExperts]
theorem experts_v19 (U : Valuation τ sig (Elt F)) :
    after opsExperts U (Proc.devRef .tc main_v19) = U (Proc.devRef .tc main_v19) := by keep_ops [opsExperts]
theorem experts_v18 (U : Valuation τ sig (Elt F)) :
    after opsExperts U (Proc.devRef .tc main_v18) = U (Proc.devRef .tc main_v18) := by keep_ops [opsExperts]
theorem experts_v3 (U : Valuation τ sig (Elt F)) :
    after opsExperts U (Proc.devRef .tc main_v3) = U (Proc.devRef .tc main_v3) := by keep_ops [opsExperts]
theorem experts_arg2 (U : Valuation τ sig (Elt F)) :
    after opsExperts U (Proc.devRef .tc main_arg2) = U (Proc.devRef .tc main_arg2) := by keep_ops [opsExperts]

/-- The dispatch writes neither weight array. -/
theorem dispatch_arg3 (L : Valuation τ sig (Elt F)) :
    after opsDispatch L (Proc.devRef .tc main_arg3) = L (Proc.devRef .tc main_arg3) := by
  keep_ops [opsDispatch, opsD0, opsD1, opsD2, opsD3, opsD4, opsD5, opsD6]
theorem dispatch_arg4 (L : Valuation τ sig (Elt F)) :
    after opsDispatch L (Proc.devRef .tc main_arg4) = L (Proc.devRef .tc main_arg4) := by
  keep_ops [opsDispatch, opsD0, opsD1, opsD2, opsD3, opsD4, opsD5, opsD6]

/-! ## No operation writes an argument -/

theorem ops_arg0 (L : Valuation τ sig (Elt F)) : after ops L (Proc.devRef .tc main_arg0) = L (Proc.devRef .tc main_arg0) := by
  keep_ops [ops, opsDispatch, opsD0, opsD1, opsD2, opsD3, opsD4, opsD5, opsD6, opsExperts, opsCombine]
theorem ops_arg1 (L : Valuation τ sig (Elt F)) : after ops L (Proc.devRef .tc main_arg1) = L (Proc.devRef .tc main_arg1) := by
  keep_ops [ops, opsDispatch, opsD0, opsD1, opsD2, opsD3, opsD4, opsD5, opsD6, opsExperts, opsCombine]
theorem ops_arg2 (L : Valuation τ sig (Elt F)) : after ops L (Proc.devRef .tc main_arg2) = L (Proc.devRef .tc main_arg2) := by
  keep_ops [ops, opsDispatch, opsD0, opsD1, opsD2, opsD3, opsD4, opsD5, opsD6, opsExperts, opsCombine]
theorem ops_arg3 (L : Valuation τ sig (Elt F)) : after ops L (Proc.devRef .tc main_arg3) = L (Proc.devRef .tc main_arg3) := by
  keep_ops [ops, opsDispatch, opsD0, opsD1, opsD2, opsD3, opsD4, opsD5, opsD6, opsExperts, opsCombine]
theorem ops_arg4 (L : Valuation τ sig (Elt F)) : after ops L (Proc.devRef .tc main_arg4) = L (Proc.devRef .tc main_arg4) := by
  keep_ops [ops, opsDispatch, opsD0, opsD1, opsD2, opsD3, opsD4, opsD5, opsD6, opsExperts, opsCombine]

end AnyInstance

/-! ## The result over the extended reals -/

/-- The fold of @main's operations at the result buffer is the whole computation's value. -/
theorem result_eq (L : Valuation τ sig (Elt Ideal)) :
    after ops L (Proc.devRef .tc main_v75)
      = Cert.KernelIdeal.MoeGlue.result (L (Proc.devRef .tc main_arg0)) (L (Proc.devRef .tc main_arg1))
          (L (Proc.devRef .tc main_arg2)) (L (Proc.devRef .tc main_arg3)) (L (Proc.devRef .tc main_arg4)) := by
  show after (opsDispatch ++ (opsExperts ++ opsCombine)) L _ = _
  rw [StableHlo.after_append, StableHlo.after_append, MoeReads.combine_read,
    experts_v47, experts_v0, experts_v19, experts_v18, experts_v3, experts_arg2,
    MoeReads.dispatch_v41, MoeReads.dispatch_v0, MoeReads.dispatch_v19, MoeReads.dispatch_v18, MoeReads.dispatch_v3,
    MoeReads.dispatch_arg2, dispatch_arg3, dispatch_arg4, MoeRef.mid_eq]
  rfl

/-- From any memory with zero counters every weakly fair execution of the reference terminates, its result buffer at
    `MoeGlue.result` of the launch contents of its arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v75)
        = Cert.KernelIdeal.MoeGlue.result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v75).trans (result_eq (launchContents m c)),
      (h c main_arg0).trans (ops_arg0 _), (h c main_arg1).trans (ops_arg1 _), (h c main_arg2).trans (ops_arg2 _),
      (h c main_arg3).trans (ops_arg3 _), (h c main_arg4).trans (ops_arg4 _)⟩) (run_main m ρ)

end Cert.ReferenceIdeal.MoeRun

end
-- ==== Proof.lean ====
/-
  A mixture-of-experts layer with capacity-based dispatch: 4096 tokens, each routed to 4 of 64 experts, are
  scattered into per-expert buffers of 512 slots and one overflow slot; each expert applies its gated
  projection (gate/up product, `silu (gate) · up`, down product) to its buffer; each (token, expert) pair reads
  its row back, weighted by its routing weight if it fitted the capacity and by zero if not, and the rows are
  summed into their tokens.

  The kernel program and the reference run the SAME host operations for the dispatch and for the combine; they
  differ only in the experts' stage, which the kernel computes one expert per grid point on the matrix unit,
  with operands narrowed to sixteen bits, and the reference as two batched products on the host with the
  logistic function written out as `1 / (1 + exp (-x))`. Over the extended reals a change of float format is
  the identity, a matrix product is the plain sum of products in both forms, and `logistic x` is by definition
  `1 / (1 + exp (-x))`, so both stages are the one function `Cert.Moe.expertOut` of the buffers and the two
  weight arrays, index by index; no algebraic law beyond that is used, and the precondition is never opened.

  The kernel program's frames are the generated ones; the reference's frame is its run (a straight line of host
  operations) with the result dropped; the ideal pass rewrote nothing, so `preserves` is trivial.
-/
import proofs.«173037_j78443282694942_1_alg».proof.Defs
import proofs.«173037_j78443282694942_1_alg».proof.Proof.Gen.Kernel
import proofs.«173037_j78443282694942_1_alg».proof.Proof.Gen.Kernel.Skeleton
import proofs.«173037_j78443282694942_1_alg».proof.Proof.Gen.Kernel.Launch
import proofs.«173037_j78443282694942_1_alg».proof.Proof.Gen.Kernel.Points
import proofs.«173037_j78443282694942_1_alg».proof.Proof.Gen.Kernel.Frame
import proofs.«173037_j78443282694942_1_alg».proof.Proof.Gen.KernelIdeal
import proofs.«173037_j78443282694942_1_alg».proof.Proof.Gen.KernelIdeal.Skeleton
import proofs.«173037_j78443282694942_1_alg».proof.Proof.Gen.KernelIdeal.Launch
import proofs.«173037_j78443282694942_1_alg».proof.Proof.Gen.KernelIdeal.Points
import proofs.«173037_j78443282694942_1_alg».proof.Proof.Gen.KernelIdeal.Frame
import proofs.«173037_j78443282694942_1_alg».proof.Proof.Gen.ReferenceIdeal
import proofs.«173037_j78443282694942_1_alg».proof.Proof.Gen.Pre_finite_inputs
import proofs.«173037_j78443282694942_1_alg».proof.Proof.KernelRun
import proofs.«173037_j78443282694942_1_alg».proof.Proof.RefValue
import Idealize.ShloMosaic.Adequacy
import Idealize.ShloMosaic.Init

noncomputable section

namespace Cert.Proof

open Idealize.ShloMosaic Idealize.SL.Sem

/-- The kernel program at the word level: the generated frame. -/
theorem frame_kernel : Cert.frame_Kernel := fun m ρ _ => Cert.Kernel.Gen.frame m ρ

/-- The idealized kernel program: the generated frame. -/
theorem frame_kernelIdeal : Cert.frame_KernelIdeal := fun m ρ _ => Cert.KernelIdeal.Gen.frame m ρ

/-- The reference: its run, the result's value dropped. -/
theorem frame_referenceIdeal : Cert.frame_ReferenceIdeal := fun m ρ _ =>
  (θ_run Cert.ReferenceIdeal.defs _ _).mono (fun _ h c => (h c).2) (Cert.ReferenceIdeal.MoeRun.run m ρ)

/-- Both programs end with their result at `MoeGlue.result` of the arguments, which agree. -/
theorem algebraic : Cert.algebraic_KernelIdeal_ReferenceIdeal := by
  intro m ρ m' ρ' _ hagree
  refine ⟨_, Cert.KernelIdeal.MoeRun.run m ρ, ?_⟩
  refine (θ_run Cert.ReferenceIdeal.defs _ _).mono (fun _ h c => ⟨(h c).1.trans ?_, (h c).2⟩)
    (Cert.ReferenceIdeal.MoeRun.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
